-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x2048 : Shape := ⟨3, ![2, 4096, 2048]⟩
abbrev S2048 : Shape := ⟨1, ![2048]⟩
abbrev S8192x2048 : Shape := ⟨2, ![8192, 2048]⟩
abbrev S2048x4096 : Shape := ⟨2, ![2048, 4096]⟩
abbrev S4096 : Shape := ⟨1, ![4096]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S8192x2048 : S_.BroadcastsInDim S8192x2048 (![] : Fin 0 → Fin S8192x2048.rank)
  reducesTo_S8192x2048_S_d0_1 : S8192x2048.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S2048x4096 .f32) (main_arg5 : FVec F S4096 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S2048x4096 .f32 := Host.absf main_arg4
  let main_cst_6 : FVec F S_ .f32 := constant S_ .f32 0x7F800000#32
  let main_v20 : FVec F S2048x4096 .f32 := broadcastInDim S2048x4096 ![] bcast_S_S2048x4096 main_cst_6
  let main_v21 : IVec S2048x4096 1 := cmpf .olt main_v19 main_v20
  let main_c_7 : IVec S_ 1 := constantI S_ 1 1#1
  let main_v22 : IVec S_ 1 := (fun x v => Host.reduce IntOp.andi x v reducesTo_S2048x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S2x4096x2048 .f32) (main_arg1 : FVec F S2048 .f32) (main_arg2 : FVec F S2048 .f32) (main_arg3 : FVec F S8192x2048 .f32) (main_arg4 : FVec F S2048x4096 .f32) (main_arg5 : FVec F S4096 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_v13 main_v16
-- ==== Kernel.lean ====
abbrev S2x4096x2048 : Shape := ⟨3, ![2, 4096, 2048]⟩
abbrev S2048 : Shape := ⟨1, ![2048]⟩
abbrev S8192x2048 : Shape := ⟨2, ![8192, 2048]⟩
abbrev S2048x4096 : Shape := ⟨2, ![2048, 4096]⟩
abbrev S4096 : Shape := ⟨1, ![4096]⟩
abbrev S1x2048 : Shape := ⟨2, ![1, 2048]⟩
abbrev S4096x2048 : Shape := ⟨2, ![4096, 2048]⟩
abbrev S_ : Shape := ⟨0, ![]⟩
abbrev S1 : Shape := ⟨1, ![1]⟩
abbrev S1x4096 : Shape := ⟨2, ![1, 4096]⟩
abbrev S512x2048 : Shape := ⟨2, ![512, 2048]⟩
abbrev S1024x2048 : Shape := ⟨2, ![1024, 2048]⟩
abbrev S1x1024 : Shape := ⟨2, ![1, 1024]⟩
abbrev S2048x1024 : Shape := ⟨2, ![2048, 1024]⟩
abbrev S512 : Shape := ⟨1, ![512]⟩
abbrev S512x1 : Shape := ⟨2, ![512, 1]⟩
abbrev S512x1024 : Shape := ⟨2, ![512, 1024]⟩

abbrev nBuf : Space → Nat
  | .hbm => 31
  | .vmem => 15
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048, .f32⟩
  | .hbm, ⟨3, _⟩ => ⟨S8192x2048, .f32⟩
  | .hbm, ⟨4, _⟩ => ⟨S2048x4096, .f32⟩
  | .hbm, ⟨5, _⟩ => ⟨S4096, .f32⟩
  | .hbm, ⟨6, _⟩ => ⟨S8192x2048, .f32⟩
  | .hbm, ⟨7, _⟩ => ⟨S1x2048, .f32⟩
  | .hbm, ⟨8, _⟩ => ⟨S1x2048, .f32⟩
  | .hbm, ⟨9, _⟩ => ⟨S4096x2048, .f32⟩
  | .hbm, ⟨10, _⟩ => ⟨S4096x2048, .bf16⟩
  | .hbm, ⟨11, _⟩ => ⟨S4096x2048, .f32⟩
  | .hbm, ⟨12, _⟩ => ⟨S4096x2048, .bf16⟩
  | .hbm, ⟨13, _⟩ => ⟨S2048x4096, .bf16⟩
  | .hbm, ⟨14, _⟩ => ⟨S4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S4096, .f32⟩
  | .hbm, ⟨27, _⟩ => ⟨S4096, .f32⟩
  | .hbm, ⟨28, _⟩ => ⟨S1x4096, .f32⟩
  | .hbm, ⟨29, _⟩ => ⟨S8192x2048, .f32⟩
  | .hbm, ⟨30, _⟩ => ⟨S2x4096x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1x1024, .f32⟩
  | .local _ .vmem, ⟨9, _⟩ => ⟨S1x1024, .f32⟩
  | .local _ .vmem, ⟨10, _⟩ => ⟨S2048x1024, .bf16⟩
  | .local _ .vmem, ⟨11, _⟩ => ⟨S2048x1024, .bf16⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v67 : BitVec 1 := Scalar.cmpi .eq arg1 c3_i32
  let v68 : BitVec 32 := Scalar.extui v67
  let c0_i32_29 : BitVec 32 := 0#32
  let v69 : BitVec 1 := Scalar.cmpi .ne v68 c0_i32_29
  v69

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S2x4096x2048_S8192x2048 : S2x4096x2048.ShapeCasts S8192x2048
  shapeCasts_S2048_S1x2048 : S2048.ShapeCasts S1x2048
  slices_S8192x2048_S4096x2048_0_0 : S8192x2048.Slices ![0, 0] S4096x2048
  bitsLt_bf16_f32 : FTy.bits .bf16 < FTy.bits .f32
  slices_S8192x2048_S4096x2048_4096_0 : S8192x2048.Slices ![4096, 0] S4096x2048
  reducesTo_S4096_S_d0 : S4096.ReducesTo [0] S_
  h_S_ : 0 < S_.numel
  bcast_S_S1 : S_.BroadcastsInDim S1 (![] : Fin 0 → Fin S1.rank)
  bcast_S1_S4096_0 : S1.BroadcastsInDim S4096 (![0] : Fin 1 → Fin S4096.rank)
  shapeCasts_S4096_S1x4096 : S4096.ShapeCasts S1x4096
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  transposes_S1024x2048_p1_0_S2048x1024 : S1024x2048.Transposes [1, 0] S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  transposes_S2048x1024_p1_0_S1024x2048 : S2048x1024.Transposes [1, 0] S1024x2048
  shapeCasts_S8192x2048_S2x4096x2048 : S8192x2048.ShapeCasts S2x4096x2048
  dot_S512x2048_S2048x1024_S512x1024_1_0_0_1_n_n_wf : DotDims.WF S512x2048 S2048x1024 S512x1024 [1] [0] [0] [1] [] []
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S4096x2048.size a
  hwx0_3 : ∀ i : grid0.Coords, EltTy.bits .bf16 = 32 ∨ (Rect.block (s := S4096x2048) S1024x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S4096x2048.size a
  hwx0_4 : ∀ i : grid0.Coords, EltTy.bits .bf16 = 32 ∨ (Rect.block (s := S4096x2048) S1024x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1024.size a ≤ S2048x4096.size a
  hwx0_6 : ∀ i : grid0.Coords, EltTy.bits .bf16 = 32 ∨ (Rect.block (s := S2048x4096) S2048x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S8192x2048.size a
  hwx0_7 : ∀ i : grid0.Coords, EltTy.bits .f32 = 32 ∨ (Rect.block (s := S8192x2048) S512x2048.size (cc0_transform_7 i) (hinb0_7 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S2048x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20) S512x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S2x4096x2048 : Shape := ⟨3, ![2, 4096, 2048]⟩
abbrev S2048 : Shape := ⟨1, ![2048]⟩
abbrev S8192x2048 : Shape := ⟨2, ![8192, 2048]⟩
abbrev S2048x4096 : Shape := ⟨2, ![2048, 4096]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x8192 : Shape := ⟨3, ![2, 4096, 8192]⟩
abbrev S2x4096x4096 : Shape := ⟨3, ![2, 4096, 4096]⟩
abbrev S1 : Shape := ⟨1, ![1]⟩
abbrev S1x1x4096 : Shape := ⟨3, ![1, 1, 4096]⟩

abbrev nBuf : Space → Nat
  | .hbm => 92
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048, .f32⟩
  | .hbm, ⟨3, _⟩ => ⟨S8192x2048, .f32⟩
  | .hbm, ⟨4, _⟩ => ⟨S2048x4096, .f32⟩
  | .hbm, ⟨5, _⟩ => ⟨S4096, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S2x4096x2048, .f32⟩
  | .hbm, ⟨13, _⟩ => ⟨S2x4096x2048, .f32⟩
  | .hbm, ⟨14, _⟩ => ⟨S2x4096x2048, .f32⟩
  | .hbm, ⟨15, _⟩ => ⟨S_, .f32⟩
  | .hbm, ⟨16, _⟩ => ⟨S2x4096, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x2048, .f32⟩
  | .hbm, ⟨22, _⟩ => ⟨S2x4096x2048, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S2x4096x1, .f32⟩
  | .hbm, ⟨27, _⟩ => ⟨S2x4096x2048, .f32⟩
  | .hbm, ⟨28, _⟩ => ⟨S2x4096x2048, .f32⟩
  | .hbm, ⟨29, _⟩ => ⟨S1x1x2048, .f32⟩
  | .hbm, ⟨30, _⟩ => ⟨S2x4096x2048, .f32⟩
  | .hbm, ⟨31, _⟩ => ⟨S2x4096x2048, .f32⟩
  | .hbm, ⟨32, _⟩ => ⟨S1x1x2048, .f32⟩
  | .hbm, ⟨33, _⟩ => ⟨S2x4096x2048, .f32⟩
  | .hbm, ⟨34, _⟩ => ⟨S2x4096x2048, .f32⟩
  | .hbm, ⟨35, _⟩ => ⟨S2x4096x8192, .f32⟩
  | .hbm, ⟨36, _⟩ => ⟨S2x4096x4096, .f32⟩
  | .hbm, ⟨37, _⟩ => ⟨S2x4096x4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2x4096x4096, .f32⟩
  | .hbm, ⟨42, _⟩ => ⟨S2x4096x4096, .f32⟩
  | .hbm, ⟨43, _⟩ => ⟨S_, .f32⟩
  | .hbm, ⟨44, _⟩ => ⟨S2x4096x4096, .f32⟩
  | .hbm, ⟨45, _⟩ => ⟨S2x4096x4096, .f32⟩
  | .hbm, ⟨46, _⟩ => ⟨S2x4096x4096, .f32⟩
  | .hbm, ⟨47, _⟩ => ⟨S2x4096x4096, .f32⟩
  | .hbm, ⟨48, _⟩ => ⟨S_, .f32⟩
  | .hbm, ⟨49, _⟩ => ⟨S2x4096x4096, .f32⟩
  | .hbm, ⟨50, _⟩ => ⟨S2x4096x4096, .f32⟩
  | .hbm, ⟨51, _⟩ => ⟨S_, .f32⟩
  | .hbm, ⟨52, _⟩ => ⟨S2x4096x4096, .f32⟩
  | .hbm, ⟨53, _⟩ => ⟨S2x4096x4096, .f32⟩
  | .hbm, ⟨54, _⟩ => ⟨S2x4096x4096, .f32⟩
  | .hbm, ⟨55, _⟩ => ⟨S4096, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1, .f32⟩
  | .hbm, ⟨61, _⟩ => ⟨S4096, .f32⟩
  | .hbm, ⟨62, _⟩ => ⟨S4096, .f32⟩
  | .hbm, ⟨63, _⟩ => ⟨S4096, .f32⟩
  | .hbm, ⟨64, _⟩ => ⟨S_, .f32⟩
  | .hbm, ⟨65, _⟩ => ⟨S_, .f32⟩
  | .hbm, ⟨66, _⟩ => ⟨S1, .f32⟩
  | .hbm, ⟨67, _⟩ => ⟨S4096, .f32⟩
  | .hbm, ⟨68, _⟩ => ⟨S4096, .f32⟩
  | .hbm, ⟨69, _⟩ => ⟨S1x1x4096, .f32⟩
  | .hbm, ⟨70, _⟩ => ⟨S2x4096x4096, .f32⟩
  | .hbm, ⟨71, _⟩ => ⟨S2x4096x4096, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S2x4096x4096, .f32⟩
  | .hbm, ⟨76, _⟩ => ⟨S2x4096x4096, .f32⟩
  | .hbm, ⟨77, _⟩ => ⟨S_, .f32⟩
  | .hbm, ⟨78, _⟩ => ⟨S2x4096x4096, .f32⟩
  | .hbm, ⟨79, _⟩ => ⟨S2x4096x4096, .f32⟩
  | .hbm, ⟨80, _⟩ => ⟨S2x4096x4096, .f32⟩
  | .hbm, ⟨81, _⟩ => ⟨S2x4096x4096, .f32⟩
  | .hbm, ⟨82, _⟩ => ⟨S_, .f32⟩
  | .hbm, ⟨83, _⟩ => ⟨S2x4096x4096, .f32⟩
  | .hbm, ⟨84, _⟩ => ⟨S2x4096x4096, .f32⟩
  | .hbm, ⟨85, _⟩ => ⟨S_, .f32⟩
  | .hbm, ⟨86, _⟩ => ⟨S2x4096x4096, .f32⟩
  | .hbm, ⟨87, _⟩ => ⟨S2x4096x4096, .f32⟩
  | .hbm, ⟨88, _⟩ => ⟨S2x4096x4096, .f32⟩
  | .hbm, ⟨89, _⟩ => ⟨S2x4096x4096, .f32⟩
  | .hbm, ⟨90, _⟩ => ⟨S2x4096x2048, .f32⟩
  | .hbm, ⟨91, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_11 : Ref sig .tc := ⟨.hbm, 72, rfl⟩
abbrev main_cst_12 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_v49 : Ref sig .tc := ⟨.hbm, 79, rfl⟩
abbrev main_call2_v0 : Ref sig .tc := ⟨.hbm, 80, rfl⟩
abbrev main_call2_v1 : Ref sig .tc := ⟨.hbm, 81, rfl⟩
abbrev main_call2_cst : Ref sig .tc := ⟨.hbm, 82, rfl⟩
abbrev main_call2_v2 : Ref sig .tc := ⟨.hbm, 83, rfl⟩
abbrev main_call2_v3 : Ref sig .tc := ⟨.hbm, 84, rfl⟩
abbrev main_call2_cst_0 : Ref sig .tc := ⟨.hbm, 85, rfl⟩
abbrev main_call2_v4 : Ref sig .tc := ⟨.hbm, 86, rfl⟩
abbrev main_call2_v5 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩

abbrev nD : Nat := 1
abbrev τ : Topo := Topo.v7x

variable {F : FTy → Type} [FloatOps F]

class Facts₀ : Prop where
  reducesTo_S2x4096x2048_S2x4096_d2 : S2x4096x2048.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x2048_0_1_2 : S2x4096x1.BroadcastsInDim S2x4096x2048 (![0, 1, 2] : Fin 3 → Fin S2x4096x2048.rank)
  bcast_S2048_S1x1x2048_2 : S2048.BroadcastsInDim S1x1x2048 (![2] : Fin 1 → Fin S1x1x2048.rank)
  bcast_S1x1x2048_S2x4096x2048_0_1_2 : S1x1x2048.BroadcastsInDim S2x4096x2048 (![0, 1, 2] : Fin 3 → Fin S2x4096x2048.rank)
  slices_S2x4096x8192_S2x4096x4096_0_0_0 : S2x4096x8192.Slices ![0, 0, 0] S2x4096x4096
  slices_S2x4096x8192_S2x4096x4096_0_0_4096 : S2x4096x8192.Slices ![0, 0, 4096] S2x4096x4096
  bcast_S_S2x4096x4096 : S_.BroadcastsInDim S2x4096x4096 (![] : Fin 0 → Fin S2x4096x4096.rank)
  reducesTo_S4096_S_d0 : S4096.ReducesTo [0] S_
  bcast_S_S1 : S_.BroadcastsInDim S1 (![] : Fin 0 → Fin S1.rank)
  bcast_S1_S4096_0 : S1.BroadcastsInDim S4096 (![0] : Fin 1 → Fin S4096.rank)
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  dot_S2x4096x2048_S8192x2048_S2x4096x8192_2_1_01_0_n_n_wf : DotDims.WF S2x4096x2048 S8192x2048 S2x4096x8192 [2] [1] [0, 1] [0] [] []
  dot_S2x4096x4096_S2048x4096_S2x4096x2048_2_1_01_0_n_n_wf : DotDims.WF S2x4096x4096 S2048x4096 S2x4096x2048 [2] [1] [0, 1] [0] [] []

variable [Facts₀]

def dot_S2x4096x2048_S8192x2048_S2x4096x8192_2_1_01_0_n_n : DotDims S2x4096x2048 S8192x2048 S2x4096x8192 where
  lhsContracting := [2]
  rhsContracting := [1]
  lhsNonContracting := [0, 1]
  rhsNonContracting := [0]
  lhsBatch := []
  rhsBatch := []
  wf := dot_S2x4096x2048_S8192x2048_S2x4096x8192_2_1_01_0_n_n_wf
def dot_S2x4096x4096_S2048x4096_S2x4096x2048_2_1_01_0_n_n : DotDims S2x4096x4096 S2048x4096 S2x4096x2048 where
  lhsContracting := [2]
  rhsContracting := [1]
  lhsNonContracting := [0, 1]
  rhsNonContracting := [0]
  lhsBatch := []
  rhsBatch := []
  wf := dot_S2x4096x4096_S2048x4096_S2x4096x2048_2_1_01_0_n_n_wf

class Facts : Prop extends Facts₀ where

variable [Facts]
-- ==== Proof.KPieces.lean ====
/-
  What one grid point leaves behind, as values. The kernel body runs in one of three ways, by the position `k` of
  the point among the four stretches of the inner axis:

    first stretch (k = 0):   the accumulator is reset to zero, then  acc := 0 + P
    middle stretches:        acc := acc + P
    last stretch (k = 3):    acc := acc + P, and the output block := acc + x

  where `P` is this stretch's product (the gated activations of the row block times the stretch of the output
  weights) and `acc + P` is one pure term of the blocks the body loads: the update `k0_pay1` over the normalised
  block `k0_pay4`, the `z` projection `k0_pay5` and the transposed gate weights `k0_pay6`. Each lemma below says
  that the contents the generated run found for a buffer (its covering stores read back) are that term; the
  accumulator read back after the reset is the reset's value, and the output block reads the accumulator after
  its update. They hold at every instance of the float operations.
-/
import proofs.«155594_j37641093382208_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every store and load of the body starts at the origin of its buffer. -/
theorem hz : (![0, 0] : Fin 2 → Nat) = fun _ => 0 := funext fun a => by fin_cases a <;> rfl

/-- The accumulator's update as one term of the loaded blocks and the accumulator's entry contents `a`. -/
abbrev upd (x0 : Vec F S512x2048 .f32) (x1 x2 : Vec F S1x2048 .f32) (x3 x4 : Vec F S1024x2048 .bf16)
    (x5 : Vec F S1x1024 .f32) (x6 : Vec F S2048x1024 .bf16) (a : Vec F S512x2048 .f32) : Vec F S512x2048 .f32 :=
  k0_pay1 (k0_pay4 x0 x1 x2) (k0_pay5 x0 x1 x2 x3) (k0_pay6 x4) x5 a x6

/-- First stretch: the accumulator ends at the update of the ZERO block (the reset, read back). -/
theorem acc_first (c : Dev nD) (i : grid0.Coords) (a2 : Memref sig .tc .vmem S512x2048 .f32) (h2 : a2.IsWhole) (a3 : Memref sig .tc .vmem S1x2048 .f32) (h3 : a3.IsWhole) (a4 : Memref sig .tc .vmem S1x2048 .f32) (h4 : a4.IsWhole) (a5 : Memref sig .tc .vmem S1024x2048 .bf16) (h5 : a5.IsWhole) (a6 : Memref sig .tc .vmem S1024x2048 .bf16) (h6 : a6.IsWhole) (a7 : Memref sig .tc .vmem S1x1024 .f32) (h7 : a7.IsWhole) (a8 : Memref sig .tc .vmem S2048x1024 .bf16) (h8 : a8.IsWhole) (a9 : Memref sig .tc .vmem S512x2048 .f32) (h9 : a9.IsWhole) (a10 : Memref sig .tc .vmem S512x2048 .f32) (h10 : a10.IsWhole) (hc0 : cond0_0 i) (hc1 : ¬cond0_1 i)
    (x0 : Vec F S512x2048 .f32) (x1 : Vec F S1x2048 .f32) (x2 : Vec F S1x2048 .f32) (x3 : Vec F S1024x2048 .bf16) (x4 : Vec F S1024x2048 .bf16) (x5 : Vec F S1x1024 .f32) (x6 : Vec F S2048x1024 .bf16) :
    sout0_A_0 c i a2 h2 a3 h3 a4 h4 a5 h5 a6 h6 a7 h7 a8 h8 a9 h9 a10 h10 hc0 hc1 x0 x1 x2 x3 x4 x5 x6 = upd x0 x1 x2 x3 x4 x5 x6 (k0_pay3 (F := F)) := by
  unfold sout0_A_0
  rw [View.read_writes_eq_canon _ _ _ (scover0_A_0 c i a2 h2 a3 h3 a4 h4 a5 h5 a6 h6 a7 h7 a8 h8 a9 h9 a10 h10 hc0 hc1 x0 x1 x2 x3 x4 x5 x6)]
  unfold kernelRun0_A
  dsimp only
  sl_unfold_words
  rw [View.canon_cons_unit_zero (S := S512x2048) hz, View.readCov_unit_zero (S := S512x2048) _ hz]
  simp only [View.readAt_eq_ld, h2.read_unread, h3.read_unread, h4.read_unread, h5.read_unread, h6.read_unread, h7.read_unread, h8.read_unread, h9.read_unread, h10.read_unread, View.ld_unit_zero (S := S512x2048) hz, View.ld_unit_zero (S := S1x2048) hz, View.ld_unit_zero (S := S1024x2048) hz, View.ld_unit_zero (S := S1x1024) hz, View.ld_unit_zero (S := S2048x1024) hz]

/-- A middle stretch: the accumulator ends at the update of what the point before left in it. -/
theorem acc_middle (c : Dev nD) (i : grid0.Coords) (a2 : Memref sig .tc .vmem S512x2048 .f32) (h2 : a2.IsWhole) (a3 : Memref sig .tc .vmem S1x2048 .f32) (h3 : a3.IsWhole) (a4 : Memref sig .tc .vmem S1x2048 .f32) (h4 : a4.IsWhole) (a5 : Memref sig .tc .vmem S1024x2048 .bf16) (h5 : a5.IsWhole) (a6 : Memref sig .tc .vmem S1024x2048 .bf16) (h6 : a6.IsWhole) (a7 : Memref sig .tc .vmem S1x1024 .f32) (h7 : a7.IsWhole) (a8 : Memref sig .tc .vmem S2048x1024 .bf16) (h8 : a8.IsWhole) (a9 : Memref sig .tc .vmem S512x2048 .f32) (h9 : a9.IsWhole) (a10 : Memref sig .tc .vmem S512x2048 .f32) (h10 : a10.IsWhole) (hc0 : ¬cond0_0 i) (hc1 : ¬cond0_1 i)
    (x0 : Vec F S512x2048 .f32) (x1 : Vec F S1x2048 .f32) (x2 : Vec F S1x2048 .f32) (x3 : Vec F S1024x2048 .bf16) (x4 : Vec F S1024x2048 .bf16) (x5 : Vec F S1x1024 .f32) (x6 : Vec F S2048x1024 .bf16) (xs0 : Vec F S512x2048 .f32) :
    sout0_B_0 c i a2 h2 a3 h3 a4 h4 a5 h5 a6 h6 a7 h7 a8 h8 a9 h9 a10 h10 hc0 hc1 x0 x1 x2 x3 x4 x5 x6 xs0 = upd x0 x1 x2 x3 x4 x5 x6 xs0 := by
  unfold sout0_B_0
  rw [View.read_writes_eq_canon _ _ _ (scover0_B_0 c i a2 h2 a3 h3 a4 h4 a5 h5 a6 h6 a7 h7 a8 h8 a9 h9 a10 h10 hc0 hc1 x0 x1 x2 x3 x4 x5 x6 xs0)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, View.ld_unit_zero (S := S512x2048) hz, View.ld_unit_zero (S := S1x2048) hz, View.ld_unit_zero (S := S1024x2048) hz, View.ld_unit_zero (S := S1x1024) hz, View.ld_unit_zero (S := S2048x1024) hz]

/-- The last stretch: the accumulator likewise, -/
theorem acc_last (c : Dev nD) (i : grid0.Coords) (a2 : Memref sig .tc .vmem S512x2048 .f32) (h2 : a2.IsWhole) (a3 : Memref sig .tc .vmem S1x2048 .f32) (h3 : a3.IsWhole) (a4 : Memref sig .tc .vmem S1x2048 .f32) (h4 : a4.IsWhole) (a5 : Memref sig .tc .vmem S1024x2048 .bf16) (h5 : a5.IsWhole) (a6 : Memref sig .tc .vmem S1024x2048 .bf16) (h6 : a6.IsWhole) (a7 : Memref sig .tc .vmem S1x1024 .f32) (h7 : a7.IsWhole) (a8 : Memref sig .tc .vmem S2048x1024 .bf16) (h8 : a8.IsWhole) (a9 : Memref sig .tc .vmem S512x2048 .f32) (h9 : a9.IsWhole) (a10 : Memref sig .tc .vmem S512x2048 .f32) (h10 : a10.IsWhole) (hc0 : ¬cond0_0 i) (hc1 : cond0_1 i)
    (x0 : Vec F S512x2048 .f32) (x1 : Vec F S1x2048 .f32) (x2 : Vec F S1x2048 .f32) (x3 : Vec F S1024x2048 .bf16) (x4 : Vec F S1024x2048 .bf16) (x5 : Vec F S1x1024 .f32) (x6 : Vec F S2048x1024 .bf16) (xs0 : Vec F S512x2048 .f32) :
    sout0_C_0 c i a2 h2 a3 h3 a4 h4 a5 h5 a6 h6 a7 h7 a8 h8 a9 h9 a10 h10 hc0 hc1 x0 x1 x2 x3 x4 x5 x6 xs0 = upd x0 x1 x2 x3 x4 x5 x6 xs0 := by
  unfold sout0_C_0
  rw [View.read_writes_eq_canon _ _ _ (scover0_C_0 c i a2 h2 a3 h3 a4 h4 a5 h5 a6 h6 a7 h7 a8 h8 a9 h9 a10 h10 hc0 hc1 x0 x1 x2 x3 x4 x5 x6 xs0)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, View.ld_unit_zero (S := S512x2048) hz, View.ld_unit_zero (S := S1x2048) hz, View.ld_unit_zero (S := S1024x2048) hz, View.ld_unit_zero (S := S1x1024) hz, View.ld_unit_zero (S := S2048x1024) hz]

/-- and the output block is the updated accumulator plus the block of `x`. -/
theorem out_last (c : Dev nD) (i : grid0.Coords) (a2 : Memref sig .tc .vmem S512x2048 .f32) (h2 : a2.IsWhole) (a3 : Memref sig .tc .vmem S1x2048 .f32) (h3 : a3.IsWhole) (a4 : Memref sig .tc .vmem S1x2048 .f32) (h4 : a4.IsWhole) (a5 : Memref sig .tc .vmem S1024x2048 .bf16) (h5 : a5.IsWhole) (a6 : Memref sig .tc .vmem S1024x2048 .bf16) (h6 : a6.IsWhole) (a7 : Memref sig .tc .vmem S1x1024 .f32) (h7 : a7.IsWhole) (a8 : Memref sig .tc .vmem S2048x1024 .bf16) (h8 : a8.IsWhole) (a9 : Memref sig .tc .vmem S512x2048 .f32) (h9 : a9.IsWhole) (a10 : Memref sig .tc .vmem S512x2048 .f32) (h10 : a10.IsWhole) (hc0 : ¬cond0_0 i) (hc1 : cond0_1 i)
    (x0 : Vec F S512x2048 .f32) (x1 : Vec F S1x2048 .f32) (x2 : Vec F S1x2048 .f32) (x3 : Vec F S1024x2048 .bf16) (x4 : Vec F S1024x2048 .bf16) (x5 : Vec F S1x1024 .f32) (x6 : Vec F S2048x1024 .bf16) (xs0 : Vec F S512x2048 .f32) :
    out0_C_7 c i a2 h2 a3 h3 a4 h4 a5 h5 a6 h6 a7 h7 a8 h8 a9 h9 a10 h10 hc0 hc1 x0 x1 x2 x3 x4 x5 x6 xs0 = k0_pay2 (upd x0 x1 x2 x3 x4 x5 x6 xs0) x0 := by
  unfold out0_C_7
  rw [View.read_writes_eq_canon _ _ _ (cover0_C_7 c i a2 h2 a3 h3 a4 h4 a5 h5 a6 h6 a7 h7 a8 h8 a9 h9 a10 h10 hc0 hc1 x0 x1 x2 x3 x4 x5 x6 xs0)]
  unfold kernelRun0_C
  dsimp only
  sl_unfold_words
  rw [View.canon_unit_zero hz]
  simp only [View.readCov_unit_zero (S := S512x2048) _ hz, View.readAt_eq_ld, h2.read_unread, h3.read_unread, h4.read_unread, h5.read_unread, h6.read_unread, h7.read_unread, h8.read_unread, h9.read_unread, h10.read_unread, View.ld_unit_zero (S := S512x2048) hz, View.ld_unit_zero (S := S1x2048) hz, View.ld_unit_zero (S := S1024x2048) hz, View.ld_unit_zero (S := S1x1024) hz, View.ld_unit_zero (S := S2048x1024) hz]

end Cert.KernelIdeal.Pieces

end
-- ==== Proof.ChunkSum.lean ====
/-
  The one algebraic law of this certificate. A sum over the 4096 inner positions is the sum of its four
  consecutive stretches of 1024, taken first to last starting from zero: position `e` of stretch `k` is
  `1024 * k + e`. It holds in every commutative additive monoid, so in particular on the extended reals,
  where it needs no finiteness: only associativity, commutativity and `0 + a = a`.
-/
import Mathlib.Algebra.BigOperators.Fin
import Mathlib.Logic.Equiv.Fin.Basic

namespace Cert.ChunkSum

/-- Position `e` of stretch `k`, as a position among the 4096. -/
def pos (k : Fin 4) (e : Fin 1024) : Fin 4096 :=
  ⟨1024 * k.val + e.val, by have := k.isLt; have := e.isLt; omega⟩

@[simp] theorem pos_val (k : Fin 4) (e : Fin 1024) : (pos k e).val = 1024 * k.val + e.val := rfl

/-- The whole sum is the sum over the pairs (stretch, position in it). -/
theorem sum_eq_sum_pairs {M : Type*} [AddCommMonoid M] (f : Fin 4096 → M) :
    ∑ e : Fin 4096, f e = ∑ p : Fin 4 × Fin 1024, f (pos p.1 p.2) := by
  refine (Fintype.sum_equiv (finProdFinEquiv (m := 4) (n := 1024)) (fun p => f (pos p.1 p.2)) f ?_).symm
  intro p
  refine congrArg f (Fin.ext ?_)
  show 1024 * p.1.val + p.2.val = p.2.val + 1024 * p.1.val
  omega

/-- The whole sum is the four stretches added in order onto zero. -/
theorem sum_eq_chain {M : Type*} [AddCommMonoid M] (f : Fin 4096 → M) :
    ∑ e : Fin 4096, f e
      = (((0 + ∑ e : Fin 1024, f (pos 0 e)) + ∑ e : Fin 1024, f (pos 1 e)) + ∑ e : Fin 1024, f (pos 2 e))
          + ∑ e : Fin 1024, f (pos 3 e) := by
  rw [sum_eq_sum_pairs, Fintype.sum_prod_type, Fin.sum_univ_four, zero_add]

end Cert.ChunkSum
-- ==== Proof.Spec.lean ====
/-
  The specification both programs meet, on the extended reals, one row of `x` at a time.

  For a row `xr` of 2048 entries: the mean `μ = (∑ xr) / 2048`, the variance `v = (∑ (xr - μ)²) / 2048`, the
  normalised row `n d = ((xr d - μ) · rsqrt (v + ε)) · γ d + β d`; for an inner position with weight rows `wz`,
  `wg` and temporal weight `wt`: `z = ∑ n · wz`, `g = ∑ n · wg`, clamped to [-15, 15] where the text says so,
  `act = ((z · σ (clip z)) · wt) · (clip g · σ (clip g))` with `σ` the logistic function; and the row's result at
  column `q` is `(∑ₑ act e · Wo q e) + xr q` over the 4096 inner positions.

  The constants stay the float words the two programs share (2048.0, the ε word, ±15.0): the same word on both
  sides is never evaluated. The kernel adds the inner sum in four stretches of 1024 onto a zero accumulator, in
  order; `rowOut_eq_chain` says that is the same number (associativity and commutativity of + only, so no
  finiteness of anything is used).
-/
import Idealize.ShloMosaic.PureOps.Ideal
import Idealize.ShloMosaic.PureOps.Ideal.Laws
import proofs.«155594_j37641093382208_1_alg».proof.Proof.ChunkSum

noncomputable section

namespace Cert.Spec

open Idealize.ShloMosaic

/-- The float words the two programs share, read at the extended reals. -/
abbrev c2048 : EReal := Ideal.ofBits .f32 0x45000000#32
abbrev ceps : EReal := Ideal.ofBits .f32 0x3727C5AC#32
abbrev clo : EReal := Ideal.ofBits .f32 0xC1700000#32
abbrev chi : EReal := Ideal.ofBits .f32 0x41700000#32

/-- Projection row `e` of the first half of the 8192 weight rows (the `z` path), and of the second half (the gate path). -/
abbrev zrow (e : Fin 4096) : Fin 8192 := ⟨e.val, by have := e.isLt; omega⟩
abbrev grow (e : Fin 4096) : Fin 8192 := ⟨4096 + e.val, by have := e.isLt; omega⟩

/-- A row's mean. -/
def mean (xr : Fin 2048 → EReal) : EReal := Ideal.div (∑ d : Fin 2048, xr d) c2048

/-- A row's variance about its mean. -/
def var (xr : Fin 2048 → EReal) : EReal :=
  Ideal.div (∑ d : Fin 2048, (xr d - mean xr) * (xr d - mean xr)) c2048

/-- The normalised row, scaled and shifted. -/
def norm (xr γ β : Fin 2048 → EReal) (d : Fin 2048) : EReal :=
  (xr d - mean xr) * Ideal.rsqrt (var xr + ceps) * γ d + β d

/-- Clamping to [-15, 15]: the lower bound first, then the upper. -/
def clip (a : EReal) : EReal := min chi (max clo a)

/-- The gated value of two projections `z`, `g` under a temporal weight `wt`. -/
def gate (z g wt : EReal) : EReal :=
  z * Ideal.logistic (clip z) * wt * (clip g * Ideal.logistic (clip g))

/-- One inner position's activation: the row projected on the two weight rows, then gated. -/
def act (xr γ β wz wg : Fin 2048 → EReal) (wt : EReal) : EReal :=
  gate (∑ d : Fin 2048, norm xr γ β d * wz d) (∑ d : Fin 2048, norm xr γ β d * wg d) wt

/-- The row's result at column `q`. -/
def rowOut (xr γ β : Fin 2048 → EReal) (Wz Wg : Fin 4096 → Fin 2048 → EReal) (w : Fin 4096 → EReal)
    (Wo : Fin 2048 → Fin 4096 → EReal) (q : Fin 2048) : EReal :=
  (∑ e : Fin 4096, act xr γ β (Wz e) (Wg e) (w e) * Wo q e) + xr q

/-- Position `e` of stretch `k` among the 4096 inner positions, for any natural `k` (reduced modulo 4096, so
    that the bound does not depend on `k`; for `k < 4` nothing is reduced). -/
def posN (k : ℕ) (e : Fin 1024) : Fin 4096 := ⟨(1024 * k + e.val) % 4096, Nat.mod_lt _ (by decide)⟩

theorem posN_eq (k : Fin 4) (e : Fin 1024) : posN k.val e = ChunkSum.pos k e := by
  apply Fin.ext
  show (1024 * k.val + e.val) % 4096 = 1024 * k.val + e.val
  have := k.isLt; have := e.isLt; omega

/-- Stretch `k` of the inner sum: its 1024 positions. -/
def part (xr γ β : Fin 2048 → EReal) (Wz Wg : Fin 4096 → Fin 2048 → EReal) (w : Fin 4096 → EReal)
    (Wo : Fin 2048 → Fin 4096 → EReal) (q : Fin 2048) (k : ℕ) : EReal :=
  ∑ e : Fin 1024, act xr γ β (Wz (posN k e)) (Wg (posN k e)) (w (posN k e)) * Wo q (posN k e)

/-- The accumulator after stretch `k`: zero plus the stretches up to `k`, added in order. -/
def acc (xr γ β : Fin 2048 → EReal) (Wz Wg : Fin 4096 → Fin 2048 → EReal) (w : Fin 4096 → EReal)
    (Wo : Fin 2048 → Fin 4096 → EReal) (q : Fin 2048) : ℕ → EReal
  | 0 => 0 + part xr γ β Wz Wg w Wo q 0
  | k + 1 => acc xr γ β Wz Wg w Wo q k + part xr γ β Wz Wg w Wo q (k + 1)

/-- The four stretches added in order onto zero, plus the row's own entry, is the row's result. -/
theorem rowOut_eq_chain (xr γ β : Fin 2048 → EReal) (Wz Wg : Fin 4096 → Fin 2048 → EReal) (w : Fin 4096 → EReal)
    (Wo : Fin 2048 → Fin 4096 → EReal) (q : Fin 2048) :
    acc xr γ β Wz Wg w Wo q 3 + xr q = rowOut xr γ β Wz Wg w Wo q := by
  unfold rowOut
  rw [ChunkSum.sum_eq_chain]
  show (((0 + part xr γ β Wz Wg w Wo q 0) + part xr γ β Wz Wg w Wo q 1) + part xr γ β Wz Wg w Wo q 2)
      + part xr γ β Wz Wg w Wo q 3 + xr q = _
  have e0 : ∀ e, posN 0 e = ChunkSum.pos 0 e := fun e => posN_eq 0 e
  have e1 : ∀ e, posN 1 e = ChunkSum.pos 1 e := fun e => posN_eq 1 e
  have e2 : ∀ e, posN 2 e = ChunkSum.pos 2 e := fun e => posN_eq 2 e
  have e3 : ∀ e, posN 3 e = ChunkSum.pos 3 e := fun e => posN_eq 3 e
  unfold part
  simp only [e0, e1, e2, e3]

end Cert.Spec

end
-- ==== Proof.KBlocks.lean ====
/-
  Where each block sits in its array. The grid has 16 × 4 points, point `t` being row block `t / 4` and stretch
  `t % 4`. At point `t` the pipeline hands the body: rows `512·(t/4) …` of `x` (all 2048 columns); the one row of the
  scale and of the shift; rows `1024·(t%4) …` of the two halves of the input weights; columns `1024·(t%4) …` of the
  temporal weights and of the output weights; and it writes back rows `512·(t/4) …` of the result. The index maps
  are decided once over the 64 points; each lemma then reads a block's element as an element of the array the
  region found (`V`), an array coordinate being block index × block size + the coordinate inside the block.
-/
import proofs.«155594_j37641093382208_1_alg».proof.Proof.Gen.KernelIdeal.Frame
import proofs.«155594_j37641093382208_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- Row `p` of row block `i`, among the 8192 rows (reduced modulo 8192 so that the bound does not depend on `i`;
    for `i < 16` nothing is reduced). -/
def rowN (i : ℕ) (p : Fin 512) : Fin 8192 := ⟨(512 * i + p.val) % 8192, Nat.mod_lt _ (by decide)⟩

/-- The printed index maps over the grid: which block of its array each window holds at point `t`. -/
theorem idx_facts : ∀ t : Fin cfg0.N,
    win0_0.index t (0 : Fin 2) = t.val / 4 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val % 4 ∧ win0_3.index t (1 : Fin 2) = 0
    ∧ win0_4.index t (0 : Fin 2) = t.val % 4 ∧ win0_4.index t (1 : Fin 2) = 0
    ∧ win0_5.index t (0 : Fin 2) = 0 ∧ win0_5.index t (1 : Fin 2) = t.val % 4
    ∧ win0_6.index t (0 : Fin 2) = 0 ∧ win0_6.index t (1 : Fin 2) = t.val % 4
    ∧ win0_7.index t (0 : Fin 2) = t.val / 4 ∧ win0_7.index t (1 : Fin 2) = 0 :=
  (by decide +kernel : ∀ t : Fin grid0.N, _)

theorem N_lt (t : Fin cfg0.N) : t.val < 64 := lt_of_lt_of_eq t.isLt (show cfg0.N = 64 from N_0)

/-- The arrays the region finds, each at its literal type. -/
abbrev arrX (c : Dev nD) : Vec F S8192x2048 .f32 := V m c main_v0
abbrev arrScale (c : Dev nD) : Vec F S1x2048 .f32 := V m c main_v1
abbrev arrShift (c : Dev nD) : Vec F S1x2048 .f32 := V m c main_v2
abbrev arrWz (c : Dev nD) : Vec F S4096x2048 .bf16 := V m c main_v4
abbrev arrWg (c : Dev nD) : Vec F S4096x2048 .bf16 := V m c main_v6
abbrev arrDt (c : Dev nD) : Vec F S1x4096 .f32 := V m c main_v19
abbrev arrWo (c : Dev nD) : Vec F S2048x4096 .bf16 := V m c main_v7

/-- The blocks the body loads at point `t`, each at its literal type. -/
abbrev blkX (c : Dev nD) (t : Fin cfg0.N) : Vec F S512x2048 .f32 := iblk m c 0 t
abbrev blkScale (c : Dev nD) (t : Fin cfg0.N) : Vec F S1x2048 .f32 := iblk m c 1 t
abbrev blkShift (c : Dev nD) (t : Fin cfg0.N) : Vec F S1x2048 .f32 := iblk m c 2 t
abbrev blkWz (c : Dev nD) (t : Fin cfg0.N) : Vec F S1024x2048 .bf16 := iblk m c 3 t
abbrev blkWg (c : Dev nD) (t : Fin cfg0.N) : Vec F S1024x2048 .bf16 := iblk m c 4 t
abbrev blkDt (c : Dev nD) (t : Fin cfg0.N) : Vec F S1x1024 .f32 := iblk m c 5 t
abbrev blkWo (c : Dev nD) (t : Fin cfg0.N) : Vec F S2048x1024 .bf16 := iblk m c 6 t

theorem blkX_apply (c : Dev nD) (t : Fin cfg0.N) (p : Fin 512) (d : Fin 2048) :
    blkX m c t (ix2 p d) = arrX m c (ix2 (rowN (t.val / 4) p) d) := by
  have hN := N_lt t
  obtain ⟨e0, e1, -⟩ := idx_facts t
  unfold blkX iblk
  rw [View.read_apply]
  show V m c main_v0 _ = V m c main_v0 _
  refine congrArg (V m c main_v0) (funext fun a => Fin.ext ?_)
  match a with
  | ⟨0, _⟩ => show win0_0.index t (0 : Fin 2) * 512 + 1 * p.val = (512 * (t.val / 4) + p.val) % 8192; have := p.isLt; omega
  | ⟨1, _⟩ => show win0_0.index t (1 : Fin 2) * 2048 + 1 * d.val = d.val; omega

theorem blkScale_apply (c : Dev nD) (t : Fin cfg0.N) (d : Fin 2048) :
    blkScale m c t (ix2 (0 : Fin 1) d) = arrScale m c (ix2 (0 : Fin 1) d) := by
  obtain ⟨-, -, e0, e1, -⟩ := idx_facts t
  unfold blkScale iblk
  rw [View.read_apply]
  show V m c main_v1 _ = V m c main_v1 _
  refine congrArg (V m c main_v1) (funext fun a => Fin.ext ?_)
  match a with
  | ⟨0, _⟩ => show win0_1.index t (0 : Fin 2) * 1 + 1 * 0 = 0; omega
  | ⟨1, _⟩ => show win0_1.index t (1 : Fin 2) * 2048 + 1 * d.val = d.val; omega

theorem blkShift_apply (c : Dev nD) (t : Fin cfg0.N) (d : Fin 2048) :
    blkShift m c t (ix2 (0 : Fin 1) d) = arrShift m c (ix2 (0 : Fin 1) d) := by
  obtain ⟨-, -, -, -, e0, e1, -⟩ := idx_facts t
  unfold blkShift iblk
  rw [View.read_apply]
  show V m c main_v2 _ = V m c main_v2 _
  refine congrArg (V m c main_v2) (funext fun a => Fin.ext ?_)
  match a with
  | ⟨0, _⟩ => show win0_2.index t (0 : Fin 2) * 1 + 1 * 0 = 0; omega
  | ⟨1, _⟩ => show win0_2.index t (1 : Fin 2) * 2048 + 1 * d.val = d.val; omega

theorem blkWz_apply (c : Dev nD) (t : Fin cfg0.N) (e : Fin 1024) (d : Fin 2048) :
    blkWz m c t (ix2 e d) = arrWz m c (ix2 (Cert.Spec.posN (t.val % 4) e) d) := by
  obtain ⟨-, -, -, -, -, -, e0, e1, -⟩ := idx_facts t
  unfold blkWz iblk
  rw [View.read_apply]
  show V m c main_v4 _ = V m c main_v4 _
  refine congrArg (V m c main_v4) (funext fun a => Fin.ext ?_)
  match a with
  | ⟨0, _⟩ => show win0_3.index t (0 : Fin 2) * 1024 + 1 * e.val = (1024 * (t.val % 4) + e.val) % 4096; have := e.isLt; omega
  | ⟨1, _⟩ => show win0_3.index t (1 : Fin 2) * 2048 + 1 * d.val = d.val; omega

theorem blkWg_apply (c : Dev nD) (t : Fin cfg0.N) (e : Fin 1024) (d : Fin 2048) :
    blkWg m c t (ix2 e d) = arrWg m c (ix2 (Cert.Spec.posN (t.val % 4) e) d) := by
  obtain ⟨-, -, -, -, -, -, -, -, e0, e1, -⟩ := idx_facts t
  unfold blkWg iblk
  rw [View.read_apply]
  show V m c main_v6 _ = V m c main_v6 _
  refine congrArg (V m c main_v6) (funext fun a => Fin.ext ?_)
  match a with
  | ⟨0, _⟩ => show win0_4.index t (0 : Fin 2) * 1024 + 1 * e.val = (1024 * (t.val % 4) + e.val) % 4096; have := e.isLt; omega
  | ⟨1, _⟩ => show win0_4.index t (1 : Fin 2) * 2048 + 1 * d.val = d.val; omega

theorem blkDt_apply (c : Dev nD) (t : Fin cfg0.N) (e : Fin 1024) :
    blkDt m c t (ix2 (0 : Fin 1) e) = arrDt m c (ix2 (0 : Fin 1) (Cert.Spec.posN (t.val % 4) e)) := by
  obtain ⟨-, -, -, -, -, -, -, -, -, -, e0, e1, -⟩ := idx_facts t
  unfold blkDt iblk
  rw [View.read_apply]
  show V m c main_v19 _ = V m c main_v19 _
  refine congrArg (V m c main_v19) (funext fun a => Fin.ext ?_)
  match a with
  | ⟨0, _⟩ => show win0_5.index t (0 : Fin 2) * 1 + 1 * 0 = 0; omega
  | ⟨1, _⟩ => show win0_5.index t (1 : Fin 2) * 1024 + 1 * e.val = (1024 * (t.val % 4) + e.val) % 4096; have := e.isLt; omega

theorem blkWo_apply (c : Dev nD) (t : Fin cfg0.N) (q : Fin 2048) (e : Fin 1024) :
    blkWo m c t (ix2 q e) = arrWo m c (ix2 q (Cert.Spec.posN (t.val % 4) e)) := by
  obtain ⟨-, -, -, -, -, -, -, -, -, -, -, -, e0, e1, -⟩ := idx_facts t
  unfold blkWo iblk
  rw [View.read_apply]
  show V m c main_v7 _ = V m c main_v7 _
  refine congrArg (V m c main_v7) (funext fun a => Fin.ext ?_)
  match a with
  | ⟨0, _⟩ => show win0_6.index t (0 : Fin 2) * 2048 + 1 * q.val = q.val; omega
  | ⟨1, _⟩ => show win0_6.index t (1 : Fin 2) * 1024 + 1 * e.val = (1024 * (t.val % 4) + e.val) % 4096; have := e.isLt; omega

end Cert.KernelIdeal.Blocks

end
-- ==== Proof.KBody.lean ====
/-
  The kernel body's arithmetic, read one entry at a time at the extended reals.

  For a row block `x0` of 512 rows, the scale and shift rows `x1`, `x2`, one stretch of 1024 weight rows `x3` (first
  projection) and `x4` (gate projection), the stretch's temporal weights `x5` and its output weights `x6`, the body
  replaces the accumulator entry `(p, q)` by itself plus the stretch's 1024 terms of the specification's inner sum for
  row `p` and column `q` (`body_apply`); on the last stretch it writes the accumulator plus the input block
  (`out_apply`); on the first it starts from zero (`zero_apply`).

  The steps that are not entry by entry each get one small lemma at an index given by its coordinates: a vector kept
  as a column, a column spread over the lanes, the sum along the lanes, and the block products (each from the zero
  block, so a plain sum of products over the one summation axis). Everything else reads through entry by entry. The
  float words the two programs share (2048.0, the ε word, ±15.0) stay words; only the zero word is evaluated.
-/
import proofs.«155594_j37641093382208_1_alg».proof.Proof.Gen.KernelIdeal.Skeleton
import proofs.«155594_j37641093382208_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KBody
open Idealize.ShloMosaic Idealize.ShloMosaic.ValueIdx Cert.KernelIdeal Cert.KernelIdeal.Gen

variable {α : Type}

/-! ## Layout operations at an index given by coordinates -/

/-- A vector of `a` entries viewed as a column `[a, 1]` reads, at `(i, u)`, entry `i`. -/
theorem columnCast_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` lanes reads, at `(p, c)`, the column's entry `p`. -/
theorem columnBroadcast_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-! ## The lane sum -/

/-- The sum along the 2048 lanes of a `[512, 2048]` block, at row `p`. -/
theorem laneSum_apply (src : FVec Ideal S512x2048 .f32) (p : Fin 512) :
    multiReduction (F := Ideal) .add [1] S512 src 0x00000000#32 reduces_S512x2048_S512 (.inl rfl) rfl (ix1 p)
      = ∑ d : Fin 2048, src (ix2 p d) := by
  refine (Ideal.multiReduction_add_single src 0x00000000#32 reduces_S512x2048_S512 (.inl rfl) rfl (ix1 p)).trans ?_
  refine Finset.sum_congr rfl fun d _ => congrArg src (funext fun ax => Fin.ext ?_)
  match ax with
  | ⟨0, _⟩ => rfl
  | ⟨1, _⟩ => rfl

/-! ## The three block products

Two of them multiply a `[512, 2048]` block by a `[2048, 1024]` one (the two projections of the normalised rows), the
third a `[512, 1024]` block by a `[1024, 2048]` one (the activations against the output weights); each starts from the
zero block, so each entry is the plain sum of products over the one summation axis. -/

/-- Where the projection product reads its operands. The left operand is read at the result's row … -/
theorem projDot_lhs_0 (i : S512x1024.Idx) (k : dot_S512x2048_S2048x1024_S512x1024_1_0_0_1_n_n.contr.Idx) :
    (dot_S512x2048_S2048x1024_S512x1024_1_0_0_1_n_n.lhsIdx i k 0).val = (i 0).val := by
  unfold DotDims.lhsIdx
  rw [dif_neg (show ¬(0 : Fin S512x2048.rank) ∈ dot_S512x2048_S2048x1024_S512x1024_1_0_0_1_n_n.lhsBatch by decide),
    dif_pos (show (0 : Fin S512x2048.rank) ∈ dot_S512x2048_S2048x1024_S512x1024_1_0_0_1_n_n.lhsNonContracting by decide)]
  rfl
/-- … and at the summation position along its lanes; -/
theorem projDot_lhs_1 (i : S512x1024.Idx) (k : dot_S512x2048_S2048x1024_S512x1024_1_0_0_1_n_n.contr.Idx) :
    (dot_S512x2048_S2048x1024_S512x1024_1_0_0_1_n_n.lhsIdx i k 1).val = (k ⟨0, by decide⟩).val :=
  dot_S512x2048_S2048x1024_S512x1024_1_0_0_1_n_n.lhsIdx_val_of_single rfl i k
/-- the right operand at the summation position along its rows … -/
theorem projDot_rhs_0 (i : S512x1024.Idx) (k : dot_S512x2048_S2048x1024_S512x1024_1_0_0_1_n_n.contr.Idx) :
    (dot_S512x2048_S2048x1024_S512x1024_1_0_0_1_n_n.rhsIdx i k 0).val = (k ⟨0, by decide⟩).val :=
  dot_S512x2048_S2048x1024_S512x1024_1_0_0_1_n_n.rhsIdx_val_of_single rfl i k
/-- … and at the result's column. -/
theorem projDot_rhs_1 (i : S512x1024.Idx) (k : dot_S512x2048_S2048x1024_S512x1024_1_0_0_1_n_n.contr.Idx) :
    (dot_S512x2048_S2048x1024_S512x1024_1_0_0_1_n_n.rhsIdx i k 1).val = (i 1).val := by
  unfold DotDims.rhsIdx
  rw [dif_neg (show ¬(1 : Fin S2048x1024.rank) ∈ dot_S512x2048_S2048x1024_S512x1024_1_0_0_1_n_n.rhsBatch by decide),
    dif_pos (show (1 : Fin S2048x1024.rank) ∈ dot_S512x2048_S2048x1024_S512x1024_1_0_0_1_n_n.rhsNonContracting by decide)]
  rfl

/-- A projection product from zero, at `(p, c)`: the sum over the 2048 lanes of row `p` of the left block times column `c` of the right one. -/
theorem projDot_apply (l : FVec Ideal S512x2048 .bf16) (r : FVec Ideal S2048x1024 .bf16) (p : Fin 512) (c : Fin 1024) :
    matmul dot_S512x2048_S2048x1024_S512x1024_1_0_0_1_n_n none l r (constant (F := Ideal) S512x1024 .f32 0x00000000#32) (ix2 p c)
      = ∑ k : Fin 2048, l (ix2 p k) * r (ix2 k c) := by
  show FloatOps.matmul dot_S512x2048_S2048x1024_S512x1024_1_0_0_1_n_n none l r (constant (F := Ideal) S512x1024 .f32 0x00000000#32) (ix2 p c) = _
  rw [Ideal.matmul_constant_zero_apply,
    ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 p c) ((contrEquiv1 dot_S512x2048_S2048x1024_S512x1024_1_0_0_1_n_n 2048 rfl rfl).symm k) = ix2 p k :=
    funext fun a => Fin.ext (by
      match a with
      | ⟨0, _⟩ => exact projDot_lhs_0 _ _
      | ⟨1, _⟩ => exact (projDot_lhs_1 _ _).trans hk)
  have er : dot_S512x2048_S2048x1024_S512x1024_1_0_0_1_n_n.rhsIdx (ix2 p c) ((contrEquiv1 dot_S512x2048_S2048x1024_S512x1024_1_0_0_1_n_n 2048 rfl rfl).symm k) = ix2 k c :=
    funext fun a => Fin.ext (by
      match a with
      | ⟨0, _⟩ => exact (projDot_rhs_0 _ _).trans hk
      | ⟨1, _⟩ => exact projDot_rhs_1 _ _)
  rw [el, er]

/-- Where the output product reads its operands. The left operand is read at the result's row … -/
theorem outDot_lhs_0 (i : S512x2048.Idx) (k : dot_S512x1024_S1024x2048_S512x2048_1_0_0_1_n_n.contr.Idx) :
    (dot_S512x1024_S1024x2048_S512x2048_1_0_0_1_n_n.lhsIdx i k 0).val = (i 0).val := by
  unfold DotDims.lhsIdx
  rw [dif_neg (show ¬(0 : Fin S512x1024.rank) ∈ dot_S512x1024_S1024x2048_S512x2048_1_0_0_1_n_n.lhsBatch by decide),
    dif_pos (show (0 : Fin S512x1024.rank) ∈ dot_S512x1024_S1024x2048_S512x2048_1_0_0_1_n_n.lhsNonContracting by decide)]
  rfl
/-- … and at the summation position along its lanes; -/
theorem outDot_lhs_1 (i : S512x2048.Idx) (k : dot_S512x1024_S1024x2048_S512x2048_1_0_0_1_n_n.contr.Idx) :
    (dot_S512x1024_S1024x2048_S512x2048_1_0_0_1_n_n.lhsIdx i k 1).val = (k ⟨0, by decide⟩).val :=
  dot_S512x1024_S1024x2048_S512x2048_1_0_0_1_n_n.lhsIdx_val_of_single rfl i k
/-- the right operand at the summation position along its rows … -/
theorem outDot_rhs_0 (i : S512x2048.Idx) (k : dot_S512x1024_S1024x2048_S512x2048_1_0_0_1_n_n.contr.Idx) :
    (dot_S512x1024_S1024x2048_S512x2048_1_0_0_1_n_n.rhsIdx i k 0).val = (k ⟨0, by decide⟩).val :=
  dot_S512x1024_S1024x2048_S512x2048_1_0_0_1_n_n.rhsIdx_val_of_single rfl i k
/-- … and at the result's column. -/
theorem outDot_rhs_1 (i : S512x2048.Idx) (k : dot_S512x1024_S1024x2048_S512x2048_1_0_0_1_n_n.contr.Idx) :
    (dot_S512x1024_S1024x2048_S512x2048_1_0_0_1_n_n.rhsIdx i k 1).val = (i 1).val := by
  unfold DotDims.rhsIdx
  rw [dif_neg (show ¬(1 : Fin S1024x2048.rank) ∈ dot_S512x1024_S1024x2048_S512x2048_1_0_0_1_n_n.rhsBatch by decide),
    dif_pos (show (1 : Fin S1024x2048.rank) ∈ dot_S512x1024_S1024x2048_S512x2048_1_0_0_1_n_n.rhsNonContracting by decide)]
  rfl

/-- The output product from zero, at `(p, c)`: the sum over the 1024 inner positions of row `p` of the left block times column `c` of the right one. -/
theorem outDot_apply (l : FVec Ideal S512x1024 .bf16) (r : FVec Ideal S1024x2048 .bf16) (p : Fin 512) (c : Fin 2048) :
    matmul dot_S512x1024_S1024x2048_S512x2048_1_0_0_1_n_n none l r (constant (F := Ideal) S512x2048 .f32 0x00000000#32) (ix2 p c)
      = ∑ k : Fin 1024, l (ix2 p k) * r (ix2 k c) := by
  show FloatOps.matmul dot_S512x1024_S1024x2048_S512x2048_1_0_0_1_n_n none l r (constant (F := Ideal) S512x2048 .f32 0x00000000#32) (ix2 p c) = _
  rw [Ideal.matmul_constant_zero_apply,
    ← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  have el : dot_S512x1024_S1024x2048_S512x2048_1_0_0_1_n_n.lhsIdx (ix2 p c) ((contrEquiv1 dot_S512x1024_S1024x2048_S512x2048_1_0_0_1_n_n 1024 rfl rfl).symm k) = ix2 p k :=
    funext fun a => Fin.ext (by
      match a with
      | ⟨0, _⟩ => exact outDot_lhs_0 _ _
      | ⟨1, _⟩ => exact (outDot_lhs_1 _ _).trans hk)
  have er : dot_S512x1024_S1024x2048_S512x2048_1_0_0_1_n_n.rhsIdx (ix2 p c) ((contrEquiv1 dot_S512x1024_S1024x2048_S512x2048_1_0_0_1_n_n 1024 rfl rfl).symm k) = ix2 k c :=
    funext fun a => Fin.ext (by
      match a with
      | ⟨0, _⟩ => exact (outDot_rhs_0 _ _).trans hk
      | ⟨1, _⟩ => exact outDot_rhs_1 _ _)
  rw [el, er]

/-! ## Two pointwise operations at an index -/

/-- The reciprocal square root of a block, at an index, is that of the entry. -/
theorem rsqrt_apply {s : Shape} {φ : FTy} (a : FVec Ideal s φ) (i : s.Idx) : rsqrt a i = Ideal.rsqrt (a i) := rfl
/-- The logistic function of a block, at an index, is that of the entry. -/
theorem logistic_apply {s : Shape} {φ : FTy} (a : FVec Ideal s φ) (i : s.Idx) : logistic a i = Ideal.logistic (a i) := rfl

/-! ## The normalised block -/

/-- A row's lane sum, kept as a column and divided by the shared word for 2048, is the specification's mean of that
    row: the mean itself when the block is the input, the variance when it is the squared deviations. -/
theorem rowMean_apply (src : FVec Ideal S512x2048 .f32) (p : Fin 512) (u : Fin 1) :
    divf (shapeCast S512x1 (multiReduction (F := Ideal) .add [1] S512 src 0x00000000#32 reduces_S512x2048_S512 (.inl rfl) rfl)
        shapeCasts_S512_S512x1) (broadcast S512x1 (Scalar.ofBits (F := Ideal) .f32 0x45000000#32)) (ix2 p u)
      = Cert.Spec.mean (fun d => src (ix2 p d)) := by
  rw [divf_apply, columnCast_apply, laneSum_apply]
  rfl

/-- The normalised, scaled and shifted block at `(p, d)` is the specification's normalised row `p` at lane `d`: the
    mean and the variance are lane sums divided by the shared word for 2048, and the narrowing to sixteen bits changes
    nothing on the extended reals. -/
theorem norm_apply (x0 : Vec Ideal S512x2048 .f32) (x1 x2 : Vec Ideal S1x2048 .f32) (p : Fin 512) (d : Fin 2048) :
    k0_pay4 (F := Ideal) x0 x1 x2 (ix2 p d)
      = Cert.Spec.norm (fun d => x0 (ix2 p d)) (fun d => x1 (ix2 0 d)) (fun d => x2 (ix2 0 d)) d := by
  unfold k0_pay4
  simp only [truncf_apply, addf_apply, mulf_apply, subf_apply, rsqrt_apply, broadcast_apply,
    broadcastTo_1b_ab_apply, columnBroadcast_apply, shapeCast_self]
  rw [rowMean_apply x0 p 0, rowMean_apply _ p 0]
  simp only [mulf_apply, subf_apply, columnBroadcast_apply]
  rw [rowMean_apply x0 p 0]
  rfl

/-! ## The projections and the transposed weights -/

/-- The gate weights as the product reads them: the stretch's block, transposed. -/
theorem gateWeights_apply (x4 : Vec Ideal S1024x2048 .bf16) (d : Fin 2048) (e : Fin 1024) :
    k0_pay6 (F := Ideal) x4 (ix2 d e) = x4 (ix2 e d) := by
  unfold k0_pay6
  exact (transpose_ix2_apply _ _ d e).trans (congrFun (shapeCast_self x4 _) _)

/-- The first projection at `(p, e)`: the normalised row `p` against weight row `e` of the stretch. -/
theorem zProj_apply (x0 : Vec Ideal S512x2048 .f32) (x1 x2 : Vec Ideal S1x2048 .f32) (x3 : Vec Ideal S1024x2048 .bf16)
    (p : Fin 512) (e : Fin 1024) :
    k0_pay5 (F := Ideal) x0 x1 x2 x3 (ix2 p e)
      = ∑ d : Fin 2048, Cert.Spec.norm (fun d => x0 (ix2 p d)) (fun d => x1 (ix2 0 d)) (fun d => x2 (ix2 0 d)) d
          * x3 (ix2 e d) := by
  unfold k0_pay5
  refine (projDot_apply _ _ p e).trans (Finset.sum_congr rfl fun d _ => ?_)
  rw [norm_apply]
  exact congrArg (_ * ·) ((transpose_ix2_apply _ _ d e).trans (congrFun (shapeCast_self x3 _) _))

/-! ## The accumulator update, the write-back and the reset -/

/-- The update over any blocks: the entry read plus, over the stretch's 1024 inner positions, the gated value of the
    first projection and the second (computed here from the normalised block and the transposed gate weights) under
    the temporal weight, times the output weight. The clamps are a maximum with the lower word then a minimum with the
    upper one, and the factors are multiplied in the specification's order. -/
theorem update_apply (v31 : FVec Ideal S512x2048 .bf16) (v35 : FVec Ideal S512x1024 .f32) (v38 : FVec Ideal S2048x1024 .bf16)
    (v46 : Vec Ideal S1x1024 .f32) (v58 : Vec Ideal S512x2048 .f32) (v59 : Vec Ideal S2048x1024 .bf16)
    (p : Fin 512) (q : Fin 2048) :
    k0_pay1 (F := Ideal) v31 v35 v38 v46 v58 v59 (ix2 p q)
      = v58 (ix2 p q) + ∑ e : Fin 1024,
          Cert.Spec.gate (v35 (ix2 p e)) (∑ d : Fin 2048, v31 (ix2 p d) * v38 (ix2 d e)) (v46 (ix2 0 e))
            * v59 (ix2 q e) := by
  unfold k0_pay1
  simp only [shapeCast_self, addf_apply]
  refine congrArg (v58 (ix2 p q) + ·) ((outDot_apply _ _ p q).trans (Finset.sum_congr rfl fun e _ => ?_))
  rw [transpose_ix2_apply]
  refine congrArg (· * v59 (ix2 q e)) ?_
  simp only [truncf_apply, mulf_apply, logistic_apply, minimumf_apply, maximumf_apply, broadcast_apply,
    broadcastTo_1b_ab_apply]
  rw [projDot_apply]
  rfl

/-- the accumulator update: the entry read plus this stretch's 1024 products -/
theorem body_apply (x0 : Vec Ideal S512x2048 .f32) (x1 x2 : Vec Ideal S1x2048 .f32) (x3 x4 : Vec Ideal S1024x2048 .bf16)
    (x5 : Vec Ideal S1x1024 .f32) (x6 : Vec Ideal S2048x1024 .bf16) (a : Vec Ideal S512x2048 .f32) (p : Fin 512) (q : Fin 2048) :
    k0_pay1 (F := Ideal) (k0_pay4 x0 x1 x2) (k0_pay5 x0 x1 x2 x3) (k0_pay6 x4) x5 a x6 (ix2 p q)
      = a (ix2 p q) + ∑ e : Fin 1024, Cert.Spec.act (fun d => x0 (ix2 p d)) (fun d => x1 (ix2 0 d)) (fun d => x2 (ix2 0 d))
            (fun d => x3 (ix2 e d)) (fun d => x4 (ix2 e d)) (x5 (ix2 0 e)) * x6 (ix2 q e) := by
  rw [update_apply]
  refine congrArg (a (ix2 p q) + ·) (Finset.sum_congr rfl fun e _ => ?_)
  rw [zProj_apply]
  simp only [norm_apply, gateWeights_apply]
  rfl

/-- the last stretch's write-back: accumulator plus the row of x -/
theorem out_apply (a x : Vec Ideal S512x2048 .f32) (p : Fin 512) (q : Fin 2048) :
    k0_pay2 (F := Ideal) a x (ix2 p q) = a (ix2 p q) + x (ix2 p q) := by
  unfold k0_pay2
  exact congrArg (a (ix2 p q) + ·) (congrFun (shapeCast_self x _) _)

/-- the reset: zero -/
theorem zero_apply (p : Fin 512) (q : Fin 2048) : k0_pay3 (F := Ideal) (ix2 p q) = 0 := by
  unfold k0_pay3
  exact (congrFun (shapeCast_self _ _) _).trans Ideal.ofBits_zero_f32

end Cert.KBody

end
-- ==== Proof.KInv.lean ====
/-
  The accumulator, point by point. After grid point `n` (row block `n / 4`, stretch `n % 4`) the accumulator's row
  `p`, column `q` holds zero plus the stretches `0 … n % 4` of the inner sum of row `512·(n/4) + p` of `x`, added in
  order (`Spec.acc`): at a first stretch the body resets it and adds stretch 0, at any other it adds its stretch to
  what the point before left. So at a last stretch (`n % 4 = 3`) the block written back, accumulator plus `x`, is
  the specification's row result. By induction on the point; each step is the body's update read at an index
  (the payload lemmas) over the blocks read as entries of their arrays (the block lemmas).
-/
import proofs.«155594_j37641093382208_1_alg».proof.Proof.KPieces
import proofs.«155594_j37641093382208_1_alg».proof.Proof.KBlocks
import proofs.«155594_j37641093382208_1_alg».proof.Proof.KBody
import proofs.«155594_j37641093382208_1_alg».proof.Proof.Spec
import Idealize.ShloMosaic.Lib.ValueIdx

noncomputable section

open Idealize.ShloMosaic Idealize.ShloMosaic.TcCoe Idealize.SL.Sem Idealize.ShloMosaic.ValueIdx

namespace Cert.KernelIdeal.Inv

open Cert.KernelIdeal Cert.KernelIdeal.Gen Cert.KernelIdeal.Blocks Cert.KernelIdeal.Pieces

variable (m : (ℓ : Loc nD τ sig) → Buf (Elt Ideal) ℓ)

/-- The arrays the region finds, as the specification's row functions. -/
def xrow (c : Dev nD) (r : Fin 8192) : Fin 2048 → EReal := fun d => arrX m c (ix2 r d)
def scale (c : Dev nD) : Fin 2048 → EReal := fun d => arrScale m c (ix2 (0 : Fin 1) d)
def shift (c : Dev nD) : Fin 2048 → EReal := fun d => arrShift m c (ix2 (0 : Fin 1) d)
def wz (c : Dev nD) : Fin 4096 → Fin 2048 → EReal := fun e d => arrWz m c (ix2 e d)
def wg (c : Dev nD) : Fin 4096 → Fin 2048 → EReal := fun e d => arrWg m c (ix2 e d)
def dtw (c : Dev nD) : Fin 4096 → EReal := fun e => arrDt m c (ix2 (0 : Fin 1) e)
def wo (c : Dev nD) : Fin 2048 → Fin 4096 → EReal := fun q e => arrWo m c (ix2 q e)

/-- Stretch `k` of row `p` of row block `i`, and the accumulator after it. -/
abbrev partAt (c : Dev nD) (i k : ℕ) (p : Fin 512) (q : Fin 2048) : EReal :=
  Cert.Spec.part (xrow m c (rowN i p)) (scale m c) (shift m c) (wz m c) (wg m c) (dtw m c) (wo m c) q k
abbrev accAt (c : Dev nD) (i k : ℕ) (p : Fin 512) (q : Fin 2048) : EReal :=
  Cert.Spec.acc (xrow m c (rowN i p)) (scale m c) (shift m c) (wz m c) (wg m c) (dtw m c) (wo m c) q k

/-- One update at point `t`, read at an index: the entry there plus this point's stretch. -/
theorem upd_apply (c : Dev nD) (t : Fin cfg0.N) (a : Vec Ideal S512x2048 .f32) (p : Fin 512) (q : Fin 2048) :
    upd (blkX m c t) (blkScale m c t) (blkShift m c t) (blkWz m c t) (blkWg m c t) (blkDt m c t) (blkWo m c t) a (ix2 p q)
      = a (ix2 p q) + partAt m c (t.val / 4) (t.val % 4) p q := by
  refine (Cert.KBody.body_apply _ _ _ _ _ _ _ a p q).trans ?_
  refine congrArg (a (ix2 p q) + ·) ?_
  unfold partAt Cert.Spec.part
  refine Finset.sum_congr rfl fun e _ => ?_
  simp only [blkX_apply, blkScale_apply, blkShift_apply, blkWz_apply, blkWg_apply, blkDt_apply, blkWo_apply]
  rfl

/-- THE INVARIANT: what the accumulator holds after point `n`. -/
theorem scratch_eq (c : Dev nD) : ∀ (n : ℕ) (h : n < cfg0.N) (p : Fin 512) (q : Fin 2048),
    (outsAt0 m c n h).2 (ix2 p q) = accAt m c (n / 4) (n % 4) p q := by
  intro n
  induction n with
  | zero =>
    intro h p q
    rw [outsAt0_A m c ⟨0, h⟩ rfl (show ¬(0 % 4 = 3) by decide)]
    dsimp only
    rw [acc_first]
    refine (upd_apply m c ⟨0, h⟩ _ p q).trans ?_
    rw [Cert.KBody.zero_apply]
    rfl
  | succ n ih =>
    intro h p q
    have hN : n + 1 < 64 := lt_of_lt_of_eq h (show cfg0.N = 64 from N_0)
    by_cases h0 : (n + 1) % 4 = 0
    · have h1 : ¬(n + 1) % 4 = 3 := by omega
      rw [outsAt0_A m c ⟨n + 1, h⟩ h0 h1]
      dsimp only
      rw [acc_first]
      refine (upd_apply m c ⟨n + 1, h⟩ _ p q).trans ?_
      rw [Cert.KBody.zero_apply]
      show 0 + partAt m c ((n + 1) / 4) ((n + 1) % 4) p q = accAt m c ((n + 1) / 4) ((n + 1) % 4) p q
      rw [h0]
      rfl
    · have e1 : (n + 1) / 4 = n / 4 := by omega
      have e2 : (n + 1) % 4 = n % 4 + 1 := by omega
      by_cases h1 : (n + 1) % 4 = 3
      · rw [outsAt0_C m c ⟨n + 1, h⟩ h0 h1]
        dsimp only
        rw [acc_last]
        refine (upd_apply m c ⟨n + 1, h⟩ _ p q).trans ?_
        show (outsAt0 m c n _).2 (ix2 p q) + partAt m c ((n + 1) / 4) ((n + 1) % 4) p q = accAt m c ((n + 1) / 4) ((n + 1) % 4) p q
        rw [ih _ p q, e1, e2]
        rfl
      · rw [outsAt0_B m c ⟨n + 1, h⟩ h0 h1]
        dsimp only
        rw [acc_middle]
        refine (upd_apply m c ⟨n + 1, h⟩ _ p q).trans ?_
        show (outsAt0 m c n _).2 (ix2 p q) + partAt m c ((n + 1) / 4) ((n + 1) % 4) p q = accAt m c ((n + 1) / 4) ((n + 1) % 4) p q
        rw [ih _ p q, e1, e2]
        rfl

/-- THE BLOCK WRITTEN BACK at a last stretch is the specification's result of the rows it covers. -/
theorem out_eq (c : Dev nD) (t : Fin cfg0.N) (h3 : t.val % 4 = 3) (p : Fin 512) (q : Fin 2048) :
    (outsAt0 m c t.val t.isLt).1 (ix2 p q)
      = Cert.Spec.rowOut (xrow m c (rowN (t.val / 4) p)) (scale m c) (shift m c) (wz m c) (wg m c) (dtw m c) (wo m c) q := by
  have hN := N_lt t
  have h0 : ¬t.val % 4 = 0 := by omega
  rw [outsAt0_C m c t h0 h3]
  dsimp only
  rw [out_last]
  refine (Cert.KBody.out_apply _ _ p q).trans ?_
  rw [upd_apply m c t _ p q, show iblk m c 0 t (ix2 p q) = _ from blkX_apply m c t p q, scratch_eq m c (t.val - 1) _ p q]
  have e1 : (t.val - 1) / 4 = t.val / 4 := by omega
  have e2 : (t.val - 1) % 4 = 2 := by omega
  rw [e1, e2, h3]
  exact Cert.Spec.rowOut_eq_chain _ _ _ _ _ _ _ q

end Cert.KernelIdeal.Inv

end
-- ==== Proof.KArrays.lean ====
/-
  The arrays the region finds, as entries of the program's arguments. Before the kernel the host reshapes `x`
  from [2, 4096, 2048] to [8192, 2048] (row `r` is (r / 4096, r % 4096)), views the scale and the shift as one
  row, takes rows 0…4095 and rows 4096…8191 of the input weights (narrowing them, which at the ideal values
  changes nothing), narrows the output weights, and computes the softmax of `-dt`, viewed as one row. The softmax
  is carried as ONE function (`softmaxNeg`) and never opened: the reference applies the same chain.
-/
import proofs.«155594_j37641093382208_1_alg».proof.Proof.KBlocks
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Arrays

open Cert.KernelIdeal Cert.KernelIdeal.Gen Cert.KernelIdeal.Blocks

variable (m : (ℓ : Loc nD τ sig) → Buf (Elt Ideal) ℓ)

/-- The softmax of `-dt` over its 4096 entries, as the host computes it: the exponentials of `-dt` less its
    maximum, over their sum. -/
def softmaxNeg (dt : FVec Ideal S4096 .f32) : FVec Ideal S4096 .f32 :=
  Host.divf
    (Host.exp (subf (Host.negf dt) (broadcastInDim S4096 ![0] bcast_S1_S4096_0 (broadcastInDim S1 ![] bcast_S_S1
      (maximumf (constant (F := Ideal) S_ .f32 0xFF800000#32)
        (Host.reduce FloatOps.maximumf (Host.negf dt) (constant (F := Ideal) S_ .f32 0xFF800000#32) reducesTo_S4096_S_d0 h_S_))))))
    (broadcastInDim S4096 ![0] bcast_S1_S4096_0 (broadcastInDim S1 ![] bcast_S_S1
      (Host.reduceAdd
        (Host.exp (subf (Host.negf dt) (broadcastInDim S4096 ![0] bcast_S1_S4096_0 (broadcastInDim S1 ![] bcast_S_S1
          (maximumf (constant (F := Ideal) S_ .f32 0xFF800000#32)
            (Host.reduce FloatOps.maximumf (Host.negf dt) (constant (F := Ideal) S_ .f32 0xFF800000#32) reducesTo_S4096_S_d0 h_S_))))))
        (constant (F := Ideal) S_ .f32 0x00000000#32) reducesTo_S4096_S_d0 h_S_)))

theorem arrX_eq (c : Dev nD) :
    arrX m c = shapeCast S8192x2048 (m ((c : Thread nD τ).loc main_arg0)) shapeCasts_S2x4096x2048_S8192x2048 := by
  show StableHlo.after hostOps0 (fun b => m (c, b)) (Proc.devRef .tc main_v0) = _
  after_results
  rfl

theorem arrScale_eq (c : Dev nD) :
    arrScale m c = shapeCast S1x2048 (m ((c : Thread nD τ).loc main_arg1)) shapeCasts_S2048_S1x2048 := by
  show StableHlo.after hostOps0 (fun b => m (c, b)) (Proc.devRef .tc main_v1) = _
  after_results
  rfl

theorem arrShift_eq (c : Dev nD) :
    arrShift m c = shapeCast S1x2048 (m ((c : Thread nD τ).loc main_arg2)) shapeCasts_S2048_S1x2048 := by
  show StableHlo.after hostOps0 (fun b => m (c, b)) (Proc.devRef .tc main_v2) = _
  after_results
  rfl

theorem arrWz_eq (c : Dev nD) :
    arrWz m c = truncf (F := Ideal) .bf16 (extractStridedSlice S4096x2048 ![0, 0] (m ((c : Thread nD τ).loc main_arg3)) slices_S8192x2048_S4096x2048_0_0) bitsLt_bf16_f32 := by
  show StableHlo.after hostOps0 (fun b => m (c, b)) (Proc.devRef .tc main_v4) = _
  after_results

theorem arrWg_eq (c : Dev nD) :
    arrWg m c = truncf (F := Ideal) .bf16 (extractStridedSlice S4096x2048 ![4096, 0] (m ((c : Thread nD τ).loc main_arg3)) slices_S8192x2048_S4096x2048_4096_0) bitsLt_bf16_f32 := by
  show StableHlo.after hostOps0 (fun b => m (c, b)) (Proc.devRef .tc main_v6) = _
  after_results

theorem arrWo_eq (c : Dev nD) :
    arrWo m c = truncf (F := Ideal) .bf16 (m ((c : Thread nD τ).loc main_arg4)) bitsLt_bf16_f32 := by
  show StableHlo.after hostOps0 (fun b => m (c, b)) (Proc.devRef .tc main_v7) = _
  after_results

theorem arrDt_eq (c : Dev nD) :
    arrDt m c = shapeCast S1x4096 (softmaxNeg (m ((c : Thread nD τ).loc main_arg5))) shapeCasts_S4096_S1x4096 := by
  show StableHlo.after hostOps0 (fun b => m (c, b)) (Proc.devRef .tc main_v19) = _
  after_results
  rfl

end Cert.KernelIdeal.Arrays

end
-- ==== Proof.KFinal.lean ====
/-
  From blocks to the result. The output window writes back only at the last stretch of each row block, and what it
  writes there is the specification's result of the 512 rows it covers (the invariant); the 16 row blocks tile the
  [8192, 2048] array, row `r` lying in block `r / 512`, so the array the region leaves is the row function `G2` of
  the arrays it found. The host then views that array as [2, 4096, 2048]: entry (b, s, q) is entry (4096·b + s, q).
  Read through the host lines before the region, the arrays are the program's arguments, so the result at (b, s, q)
  is the specification's row result of row (b, s) of `x` (`resultAt`).
-/
import proofs.«155594_j37641093382208_1_alg».proof.Proof.KInv
import proofs.«155594_j37641093382208_1_alg».proof.Proof.KArrays
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Arrays Cert.KernelIdeal.Inv

variable (m : (ℓ : Loc nD τ sig) → Buf (Elt Ideal) ℓ) (ρ : Dev nD → PrngReg)

/-- Row (b, s) of `x` among the 8192 rows of its reshaped form. -/
def rowOf (b : Fin 2) (s : Fin 4096) : Fin 8192 := ⟨4096 * b.val + s.val, by have := b.isLt; have := s.isLt; omega⟩

/-! ## The arrays the region finds, read at an index -/

theorem arrX_apply (c : Dev nD) (b : Fin 2) (s : Fin 4096) (d : Fin 2048) :
    arrX m c (ix2 (rowOf b s) d) = m ((c : Thread nD τ).loc main_arg0) (ix3 b s d) := by
  rw [arrX_eq]
  refine shapeCast_apply _ _ _ _ ?_
  show ((⟨3, ![2, 4096, 2048]⟩ : Shape).rowMajor (ix3 b s d)).val = ((⟨2, ![8192, 2048]⟩ : Shape).rowMajor (ix2 (rowOf b s) d)).val
  rw [Shape.rowMajor_val_three, Shape.rowMajor_val_two]
  show (b.val * 4096 + s.val) * 2048 + d.val = (4096 * b.val + s.val) * 2048 + d.val
  omega

theorem arrScale_apply (c : Dev nD) (d : Fin 2048) :
    arrScale m c (ix2 (0 : Fin 1) d) = m ((c : Thread nD τ).loc main_arg1) (ix1 d) := by
  rw [arrScale_eq]
  refine shapeCast_apply _ _ _ _ ?_
  show ((⟨1, ![2048]⟩ : Shape).rowMajor (ix1 d)).val = ((⟨2, ![1, 2048]⟩ : Shape).rowMajor (ix2 (0 : Fin 1) d)).val
  rw [Shape.rowMajor_val_one, Shape.rowMajor_val_two]
  show d.val = 0 * 2048 + d.val
  omega

theorem arrShift_apply (c : Dev nD) (d : Fin 2048) :
    arrShift m c (ix2 (0 : Fin 1) d) = m ((c : Thread nD τ).loc main_arg2) (ix1 d) := by
  rw [arrShift_eq]
  refine shapeCast_apply _ _ _ _ ?_
  show ((⟨1, ![2048]⟩ : Shape).rowMajor (ix1 d)).val = ((⟨2, ![1, 2048]⟩ : Shape).rowMajor (ix2 (0 : Fin 1) d)).val
  rw [Shape.rowMajor_val_one, Shape.rowMajor_val_two]
  show d.val = 0 * 2048 + d.val
  omega

theorem arrWz_apply (c : Dev nD) (e : Fin 4096) (d : Fin 2048) :
    arrWz m c (ix2 e d) = m ((c : Thread nD τ).loc main_arg3) (ix2 (Cert.Spec.zrow e) d) := by
  rw [arrWz_eq]
  show extractStridedSlice S4096x2048 ![0, 0] (m ((c : Thread nD τ).loc main_arg3)) slices_S8192x2048_S4096x2048_0_0 (ix2 e d) = _
  refine extractStridedSlice_apply _ _ _ _ _ fun a => ?_
  match a with
  | ⟨0, _⟩ => show e.val = 0 + e.val; omega
  | ⟨1, _⟩ => show d.val = 0 + d.val; omega

theorem arrWg_apply (c : Dev nD) (e : Fin 4096) (d : Fin 2048) :
    arrWg m c (ix2 e d) = m ((c : Thread nD τ).loc main_arg3) (ix2 (Cert.Spec.grow e) d) := by
  rw [arrWg_eq]
  show extractStridedSlice S4096x2048 ![4096, 0] (m ((c : Thread nD τ).loc main_arg3)) slices_S8192x2048_S4096x2048_4096_0 (ix2 e d) = _
  refine extractStridedSlice_apply _ _ _ _ _ fun a => ?_
  match a with
  | ⟨0, _⟩ => show 4096 + e.val = 4096 + e.val; rfl
  | ⟨1, _⟩ => show d.val = 0 + d.val; omega

theorem arrWo_apply (c : Dev nD) (q : Fin 2048) (e : Fin 4096) :
    arrWo m c (ix2 q e) = m ((c : Thread nD τ).loc main_arg4) (ix2 q e) := by
  rw [arrWo_eq]
  rfl

theorem arrDt_apply (c : Dev nD) (e : Fin 4096) :
    arrDt m c (ix2 (0 : Fin 1) e) = softmaxNeg (m ((c : Thread nD τ).loc main_arg5)) (ix1 e) := by
  rw [arrDt_eq]
  refine shapeCast_apply _ _ _ _ ?_
  show ((⟨1, ![4096]⟩ : Shape).rowMajor (ix1 e)).val = ((⟨2, ![1, 4096]⟩ : Shape).rowMajor (ix2 (0 : Fin 1) e)).val
  rw [Shape.rowMajor_val_one, Shape.rowMajor_val_two]
  show e.val = 0 * 4096 + e.val
  omega

/-! ## The array the region leaves -/

/-- The row function of the arrays the region finds: entry (r, q) is row `r`'s result at column `q`. -/
def G2 (c : Dev nD) : Vec Ideal S8192x2048 .f32 := fun j =>
  Cert.Spec.rowOut (xrow m c (j 0)) (scale m c) (shift m c) (wz m c) (wg m c) (dtw m c) (wo m c) (j 1)

/-- WHAT A LAST-STRETCH POINT WRITES BACK is its block of `G2`. -/
theorem flushed_eq (c : Dev nD) (t : Fin cfg0.N) (hf : (cfg0.win 7).flush t = true) :
    (dats m 0 c).flushed 7 t = ((cfg0.win 7).blk t).view.read (Elt Ideal) (G2 m c) := by
  have h3 : t.val % 4 = 3 := (flush0_7 t).mp hf
  have hN := N_lt t
  obtain ⟨-, -, -, -, -, -, -, -, -, -, -, -, -, -, e0, e1⟩ := idx_facts t
  show (cfg0.win 7).cut (grid0.coords t) ((dats m 0 c).after 7 t) = _
  rw [after0_7]
  funext y
  obtain ⟨p, q, rfl⟩ : ∃ (p : Fin 512) (q : Fin 2048), y = ix2 p q := ⟨y 0, y 1, eq_ix2 y⟩
  show (outsAt0 m c t.val t.isLt).1 (ix2 p q) = G2 m c (((cfg0.win 7).blk t).view.emb (ix2 p q))
  rw [out_eq m c t h3 p q]
  have ea : ((cfg0.win 7).blk t).view.emb (ix2 p q) = ix2 (rowN (t.val / 4) p) q := by
    funext a; apply Fin.ext
    match a with
    | ⟨0, _⟩ => show win0_7.index t (0 : Fin 2) * 512 + 1 * p.val = (512 * (t.val / 4) + p.val) % 8192; have := p.isLt; omega
    | ⟨1, _⟩ => show win0_7.index t (1 : Fin 2) * 2048 + 1 * q.val = q.val; omega
  rw [ea]
  rfl

/-- An index of the array is in point `t`'s block iff each coordinate is in the block's range on its axis. -/
theorem mem_blk (t : Fin cfg0.N) (i : S8192x2048.Idx) :
    i ∈ ((cfg0.win 7).blk t).view.set ↔ ∀ a : Fin 2, win0_7.index t a * S512x2048.size a ≤ (i a).val ∧ (i a).val < win0_7.index t a * S512x2048.size a + S512x2048.size a := by
  show i ∈ ((View.whole main_v20).slice (win0_7.rect t)).set ↔ _
  rw [View.set_slice_whole, Rect.mem_set_unit]
  exact Iff.rfl

/-- Every row lies in the block written back at the last stretch of its row block. -/
theorem cover (i : S8192x2048.Idx) :
    ∃ t : Fin cfg0.N, (cfg0.win 7).flush t = true ∧ i ∈ ((cfg0.win 7).blk t).view.set := by
  have hi0 : (i 0).val < 8192 := (i 0).isLt
  have hi1 : (i 1).val < 2048 := (i 1).isLt
  have hN : cfg0.N = 64 := N_0
  let t : Fin cfg0.N := ⟨4 * ((i 0).val / 512) + 3, by rw [hN]; omega⟩
  have ht : t.val = 4 * ((i 0).val / 512) + 3 := rfl
  obtain ⟨-, -, -, -, -, -, -, -, -, -, -, -, -, -, e0, e1⟩ := idx_facts t
  refine ⟨t, (flush0_7 t).mpr (by rw [ht]; omega), ?_⟩
  rw [mem_blk]
  intro a
  match a with
  | ⟨0, _⟩ => show win0_7.index t (0 : Fin 2) * 512 ≤ (i 0).val ∧ (i 0).val < win0_7.index t (0 : Fin 2) * 512 + 512; rw [e0, ht]; omega
  | ⟨1, _⟩ => show win0_7.index t (1 : Fin 2) * 2048 ≤ (i 1).val ∧ (i 1).val < win0_7.index t (1 : Fin 2) * 2048 + 2048; rw [e1]; omega

/-- So the array the region leaves is `G2`. -/
theorem final (c : Dev nD) : (dats m 0 c).arrAt 7 cfg0.N = G2 m c :=
  (dats m 0 c).arrAt_eq_of_cover 7 (G2 m c) (flushed_eq m c) cover

/-! ## The result, in terms of the arguments -/

/-- The specification's row result of row (b, s) of `x`, over the program's arguments. -/
def resultAt (c : Dev nD) (b : Fin 2) (s : Fin 4096) (q : Fin 2048) : EReal :=
  Cert.Spec.rowOut (fun d => m ((c : Thread nD τ).loc main_arg0) (ix3 b s d))
    (fun d => m ((c : Thread nD τ).loc main_arg1) (ix1 d)) (fun d => m ((c : Thread nD τ).loc main_arg2) (ix1 d))
    (fun e d => m ((c : Thread nD τ).loc main_arg3) (ix2 (Cert.Spec.zrow e) d))
    (fun e d => m ((c : Thread nD τ).loc main_arg3) (ix2 (Cert.Spec.grow e) d))
    (fun e => softmaxNeg (m ((c : Thread nD τ).loc main_arg5)) (ix1 e))
    (fun q' e => m ((c : Thread nD τ).loc main_arg4) (ix2 q' e)) q

theorem G2_apply (c : Dev nD) (b : Fin 2) (s : Fin 4096) (q : Fin 2048) :
    G2 m c (ix2 (rowOf b s) q) = resultAt m c b s q := by
  have hx : xrow m c (rowOf b s) = fun d => m ((c : Thread nD τ).loc main_arg0) (ix3 b s d) :=
    funext fun d => arrX_apply m c b s d
  have hs : scale m c = fun d => m ((c : Thread nD τ).loc main_arg1) (ix1 d) := funext fun d => arrScale_apply m c d
  have hh : shift m c = fun d => m ((c : Thread nD τ).loc main_arg2) (ix1 d) := funext fun d => arrShift_apply m c d
  have hz : wz m c = fun e d => m ((c : Thread nD τ).loc main_arg3) (ix2 (Cert.Spec.zrow e) d) :=
    funext fun e => funext fun d => arrWz_apply m c e d
  have hg : wg m c = fun e d => m ((c : Thread nD τ).loc main_arg3) (ix2 (Cert.Spec.grow e) d) :=
    funext fun e => funext fun d => arrWg_apply m c e d
  have hd : dtw m c = fun e => softmaxNeg (m ((c : Thread nD τ).loc main_arg5)) (ix1 e) := funext fun e => arrDt_apply m c e
  have ho : wo m c = fun q' e => m ((c : Thread nD τ).loc main_arg4) (ix2 q' e) :=
    funext fun q' => funext fun e => arrWo_apply m c q' e
  show Cert.Spec.rowOut (xrow m c (rowOf b s)) (scale m c) (shift m c) (wz m c) (wg m c) (dtw m c) (wo m c) q = _
  rw [hx, hs, hh, hz, hg, hd, ho]
  rfl

/-- The result buffer after the run: the region's array viewed as [2, 4096, 2048]. -/
def result (c : Dev nD) : Buf (Elt Ideal) ((c : Thread nD τ).loc main_v21) :=
  shapeCast S2x4096x2048 (G2 m c) shapeCasts_S8192x2048_S2x4096x2048

theorem result_apply (c : Dev nD) (b : Fin 2) (s : Fin 4096) (q : Fin 2048) :
    result m c (ix3 b s q) = resultAt m c b s q := by
  unfold result
  refine (shapeCast_apply (G2 m c) _ (ix3 b s q) (ix2 (rowOf b s) q) ?_).trans (G2_apply m c b s q)
  show ((⟨2, ![8192, 2048]⟩ : Shape).rowMajor (ix2 (rowOf b s) q)).val = ((⟨3, ![2, 4096, 2048]⟩ : Shape).rowMajor (ix3 b s q)).val
  rw [Shape.rowMajor_val_three, Shape.rowMajor_val_two]
  show (4096 * b.val + s.val) * 2048 + q.val = (b.val * 4096 + s.val) * 2048 + q.val
  omega

/-- The host line after the region leaves that view in the result buffer. -/
theorem tail_eq (c : Dev nD) :
    Pipeline.afterTail₀ cfgs (dats m) 0 (V0 m) [hostOps1] c main_v21 = result m c := by
  unfold Pipeline.afterTail₀
  show StableHlo.after hostOps1 _ (Proc.devRef .tc main_v21) = _
  after_results
  unfold result
  rw [← final m c]
  exact congrArg (fun v => shapeCast S2x4096x2048 v shapeCasts_S8192x2048_S2x4096x2048)
    (Pipeline.withArrays_arr spec0 launch0.win.arr_inj c _ _ 7)

/-- THE RUN, READ: every weakly fair execution ends with the result buffer at `result` and the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v21 (Pipeline.mem_restRefs_of main_v21 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Final

end
-- ==== Proof.RefSide.lean ====
/-
  The reference program's result, read at one index, is the specification's row function.

  Fix a row (b, s) of the input. Reading the reference one operation at a time, from the inside out:
  the host's sum over the last axis starts from the zero word, so it is the plain sum of the row, and
  dividing by the shared word for 2048 gives the row's mean; the same sum of the squared differences
  from that mean, divided by the same word, is the variance; the reciprocal square root of the variance
  plus the shared ε word, times the difference, times γ, plus β, is the normalised row. The first
  contraction pairs the normalised row with each of the 8192 weight rows; its two halves are the z path
  (rows 0..4095) and the gate path (rows 4096..8191). Clamping is "maximum with the lower bound, then
  minimum with the upper bound". The z path's 1 / (1 + exp (-c)) and the gate path's c · 1 / (1 + exp (-c))
  are the logistic function once the word 0x3F800000 is read as 1. The temporal weights are kept as the
  program's own softmax stage, unopened. The second contraction sums the activations against a row of the
  output weights over the 4096 inner positions, and the row's own entry is added at the end.
-/
import proofs.«155594_j37641093382208_1_alg».proof.Proof.Gen.ReferenceIdeal.Read
import proofs.«155594_j37641093382208_1_alg».proof.Proof.Spec

noncomputable section

namespace Cert.RefSide

open Idealize.ShloMosaic Idealize.ShloMosaic.ValueIdx Cert.ReferenceIdeal Cert.ReferenceIdeal.Read

/-- The word 0x3F800000 is the number one. -/
private theorem one_word : Ideal.ofBits .f32 0x3F800000#32 = 1 := IdealRules.sign_bit.ideal_onePat .f32

section Row

variable (x0 : (⟨S2x4096x2048, .f32⟩ : BufTy).Contents (Elt Ideal)) (x1 x2 : (⟨S2048, .f32⟩ : BufTy).Contents (Elt Ideal))
  (x3 : (⟨S8192x2048, .f32⟩ : BufTy).Contents (Elt Ideal)) (x4 : (⟨S2048x4096, .f32⟩ : BufTy).Contents (Elt Ideal))
  (x5 : (⟨S4096, .f32⟩ : BufTy).Contents (Elt Ideal)) (b : Fin 2) (s : Fin 4096)

/-- Row (b, s) of the input, and the scale and shift vectors, as functions of the column. -/
private abbrev xr : Fin 2048 → EReal := fun d => x0 (ix3 b s d)
private abbrev γ : Fin 2048 → EReal := fun d => x1 (ix1 d)
private abbrev β : Fin 2048 → EReal := fun d => x2 (ix1 d)

/-! ### Where each layout step reads, for an index given by its coordinates -/

/-- The row sum at (b, s), seen from the keep-dims column, runs over the entries (b, s, k). -/
private theorem sum_row_idx (z : Fin 1) (k : Fin 2048) : idx_main_v0 (idx_main_v1 (ix3 b s z)) k = ix3 b s k :=
  funext fun a => Fin.ext (by match a with | ⟨0, _⟩ => rfl | ⟨1, _⟩ => rfl | ⟨2, _⟩ => rfl)

/-- So does the sum of squares. -/
private theorem sq_row_idx (z : Fin 1) (k : Fin 2048) : idx_main_v7 (idx_main_v8 (ix3 b s z)) k = ix3 b s k :=
  funext fun a => Fin.ext (by match a with | ⟨0, _⟩ => rfl | ⟨1, _⟩ => rfl | ⟨2, _⟩ => rfl)

/-- A per-row column spread along the row is read at the row's one column entry (the mean, for the variance). -/
private theorem col_idx_v4 (d : Fin 2048) : idx_main_v4 (ix3 b s d) = ix3 b s (0 : Fin 1) :=
  funext fun a => Fin.ext (by match a with | ⟨0, _⟩ => rfl | ⟨1, _⟩ => rfl | ⟨2, _⟩ => rfl)

/-- The mean again, for the normalised row. -/
private theorem col_idx_v11 (d : Fin 2048) : idx_main_v11 (ix3 b s d) = ix3 b s (0 : Fin 1) :=
  funext fun a => Fin.ext (by match a with | ⟨0, _⟩ => rfl | ⟨1, _⟩ => rfl | ⟨2, _⟩ => rfl)

/-- The reciprocal standard deviation. -/
private theorem col_idx_v16 (d : Fin 2048) : idx_main_v16 (ix3 b s d) = ix3 b s (0 : Fin 1) :=
  funext fun a => Fin.ext (by match a with | ⟨0, _⟩ => rfl | ⟨1, _⟩ => rfl | ⟨2, _⟩ => rfl)

/-- The scale vector spread over all rows is read at the column. -/
private theorem scale_idx (d : Fin 2048) : idx_main_v18 (idx_main_v19 (ix3 b s d)) = ix1 d :=
  funext fun a => Fin.ext (by match a with | ⟨0, _⟩ => rfl)

/-- So is the shift vector. -/
private theorem shift_idx (d : Fin 2048) : idx_main_v21 (idx_main_v22 (ix3 b s d)) = ix1 d :=
  funext fun a => Fin.ext (by match a with | ⟨0, _⟩ => rfl)

/-- The first contraction at (b, s, e) pairs entry (b, s, k) of the normalised row … -/
private theorem proj_lidx (e : Fin 8192) (k : Fin 2048) : lidx_main_v24 (ix3 b s e) k = ix3 b s k :=
  funext fun a => Fin.ext (by match a with | ⟨0, _⟩ => rfl | ⟨1, _⟩ => rfl | ⟨2, _⟩ => rfl)

/-- … with entry (e, k) of the input weights. -/
private theorem proj_ridx (e : Fin 8192) (k : Fin 2048) : ridx_main_v24 (ix3 b s e) k = ix2 e k :=
  funext fun a => Fin.ext (by match a with | ⟨0, _⟩ => rfl | ⟨1, _⟩ => rfl)

/-- The first half of the projections: weight row e. -/
private theorem z_idx (e : Fin 4096) : idx_main_v25 (ix3 b s e) = ix3 b s (Spec.zrow e) :=
  funext fun a => Fin.ext (by match a with | ⟨0, _⟩ => rfl | ⟨1, _⟩ => rfl | ⟨2, _⟩ => rfl)

/-- The second half: weight row 4096 + e. -/
private theorem g_idx (e : Fin 4096) : idx_main_v26 (ix3 b s e) = ix3 b s (Spec.grow e) :=
  funext fun a => Fin.ext (by match a with | ⟨0, _⟩ => rfl | ⟨1, _⟩ => rfl | ⟨2, _⟩ => rfl)

/-- The temporal weights spread over all rows are read at the inner position. -/
private theorem weight_idx (e : Fin 4096) : idx_main_v46 (idx_main_v47 (ix3 b s e)) = ix1 e :=
  funext fun a => Fin.ext (by match a with | ⟨0, _⟩ => rfl)

/-- The second contraction at (b, s, q) pairs the activation at (b, s, k) … -/
private theorem out_lidx (q : Fin 2048) (k : Fin 4096) : lidx_main_v52 (ix3 b s q) k = ix3 b s k :=
  funext fun a => Fin.ext (by match a with | ⟨0, _⟩ => rfl | ⟨1, _⟩ => rfl | ⟨2, _⟩ => rfl)

/-- … with entry (q, k) of the output weights. -/
private theorem out_ridx (q : Fin 2048) (k : Fin 4096) : ridx_main_v52 (ix3 b s q) k = ix2 q k :=
  funext fun a => Fin.ext (by match a with | ⟨0, _⟩ => rfl | ⟨1, _⟩ => rfl)

/-! ### The normalised row -/

/-- The mean: zero plus the row's sum, over the word for 2048. -/
private theorem mean_at (z : Fin 1) : val_main_v3 (F := Ideal) x0 (ix3 b s z) = Spec.mean (xr x0 b s) := by
  rw [val_main_v3_apply, val_main_v1_apply, val_main_v0_apply, val_main_v2_apply, val_main_cst_0_apply,
    val_main_cst_apply]
  simp only [sum_row_idx, Ideal.hostDivf_def, Ideal.ofBits_def, Ideal.ofBits_zero_f32, zero_add]
  rfl

/-- The difference from the mean, as the variance uses it. -/
private theorem centred_at (d : Fin 2048) :
    val_main_v5 (F := Ideal) x0 (ix3 b s d) = x0 (ix3 b s d) - Spec.mean (xr x0 b s) := by
  rw [val_main_v5_apply, val_main_v4_apply, col_idx_v4, mean_at]
  rfl

/-- The variance: zero plus the sum of the squared differences, over the same word. -/
private theorem var_at (z : Fin 1) : val_main_v10 (F := Ideal) x0 (ix3 b s z) = Spec.var (xr x0 b s) := by
  rw [val_main_v10_apply, val_main_v8_apply, val_main_v7_apply, val_main_v9_apply, val_main_cst_2_apply,
    val_main_cst_1_apply]
  simp only [sq_row_idx, val_main_v6_apply, centred_at, Ideal.hostDivf_def, Ideal.mulf_def, Ideal.ofBits_def,
    Ideal.ofBits_zero_f32, zero_add]
  rfl

/-- The reciprocal square root of the variance plus ε. -/
private theorem rstd_at (z : Fin 1) :
    val_main_v15 (F := Ideal) x0 (ix3 b s z) = Ideal.rsqrt (Spec.var (xr x0 b s) + Spec.ceps) := by
  rw [val_main_v15_apply, val_main_v14_apply, val_main_v13_apply, val_main_cst_3_apply, var_at]
  rfl

/-- The normalised row, scaled and shifted. -/
private theorem norm_at (d : Fin 2048) :
    val_main_v23 (F := Ideal) x0 x1 x2 (ix3 b s d) = Spec.norm (xr x0 b s) (γ x1) (β x2) d := by
  rw [val_main_v23_apply, val_main_v20_apply, val_main_v17_apply, val_main_v12_apply, val_main_v11_apply,
    val_main_v16_apply, val_main_v19_apply, val_main_v18_apply, val_main_v22_apply, val_main_v21_apply,
    col_idx_v11, col_idx_v16, scale_idx, shift_idx, mean_at, rstd_at]
  rfl

/-! ### The two projections and their gating -/

/-- The projection of the normalised row on weight row e, for each of the 8192 rows. -/
private theorem proj_at (e : Fin 8192) :
    val_main_v24 (F := Ideal) x0 x1 x2 x3 (ix3 b s e)
      = ∑ d : Fin 2048, Spec.norm (xr x0 b s) (γ x1) (β x2) d * x3 (ix2 e d) := by
  rw [val_main_v24_apply]
  simp only [proj_lidx, proj_ridx, norm_at]

/-- The z path's projection. -/
private abbrev zv (e : Fin 4096) : EReal :=
  ∑ d : Fin 2048, Spec.norm (xr x0 b s) (γ x1) (β x2) d * x3 (ix2 (Spec.zrow e) d)
/-- The gate path's projection. -/
private abbrev gv (e : Fin 4096) : EReal :=
  ∑ d : Fin 2048, Spec.norm (xr x0 b s) (γ x1) (β x2) d * x3 (ix2 (Spec.grow e) d)

private theorem z_at (e : Fin 4096) :
    val_main_v25 (F := Ideal) x0 x1 x2 x3 (ix3 b s e) = zv x0 x1 x2 x3 b s e := by
  rw [val_main_v25_apply, z_idx, proj_at]

private theorem g_at (e : Fin 4096) :
    val_main_v26 (F := Ideal) x0 x1 x2 x3 (ix3 b s e) = gv x0 x1 x2 x3 b s e := by
  rw [val_main_v26_apply, g_idx, proj_at]

/-- The clamped z: the larger of the lower bound and z, then the smaller of the upper bound and that. -/
private theorem clipz_at (e : Fin 4096) :
    val_main_v27 (F := Ideal) x0 x1 x2 x3 (ix3 b s e) = Spec.clip (zv x0 x1 x2 x3 b s e) := by
  rw [val_main_v27_apply, val_main_call0_v4_apply, val_main_call0_v3_apply, val_main_cst_5_apply,
    val_main_call0_v2_apply, val_main_call0_v1_apply, val_main_call0_v0_apply, val_main_cst_4_apply, z_at]
  rfl

/-- The clamped gate. -/
private theorem clipg_at (e : Fin 4096) :
    val_main_v49 (F := Ideal) x0 x1 x2 x3 (ix3 b s e) = Spec.clip (gv x0 x1 x2 x3 b s e) := by
  rw [val_main_v49_apply, val_main_call1_v4_apply, val_main_call1_v3_apply, val_main_cst_12_apply,
    val_main_call1_v2_apply, val_main_call1_v1_apply, val_main_call1_v0_apply, val_main_cst_11_apply, g_at]
  rfl

/-- One over one plus the exponential of minus the clamped z is its logistic value. -/
private theorem sigz_at (e : Fin 4096) :
    val_main_v33 (F := Ideal) x0 x1 x2 x3 (ix3 b s e) = Ideal.logistic (Spec.clip (zv x0 x1 x2 x3 b s e)) := by
  rw [val_main_v33_apply, val_main_v32_apply, val_main_cst_7_apply, val_main_v31_apply, val_main_v30_apply,
    val_main_cst_6_apply, val_main_v29_apply, val_main_v28_apply, clipz_at]
  simp only [Ideal.ofBits_def, one_word]
  rfl

/-- The same expansion on the clamped gate. -/
private theorem sigg_at (e : Fin 4096) :
    val_main_call2_v5 (F := Ideal) x0 x1 x2 x3 (ix3 b s e) = Ideal.logistic (Spec.clip (gv x0 x1 x2 x3 b s e)) := by
  rw [val_main_call2_v5_apply, val_main_call2_v4_apply, val_main_call2_cst_0_apply, val_main_call2_v3_apply,
    val_main_call2_v2_apply, val_main_call2_cst_apply, val_main_call2_v1_apply, val_main_call2_v0_apply, clipg_at]
  simp only [Ideal.ofBits_def, one_word]
  rfl

/-- One inner position's activation, with the temporal weight left as the program's softmax stage. -/
private theorem act_at (e : Fin 4096) :
    val_main_v51 (F := Ideal) x0 x1 x2 x3 x5 (ix3 b s e)
      = Spec.act (xr x0 b s) (γ x1) (β x2) (fun d => x3 (ix2 (Spec.zrow e) d)) (fun d => x3 (ix2 (Spec.grow e) d))
          (val_main_v45 (F := Ideal) x5 (ix1 e)) := by
  rw [val_main_v51_apply, val_main_v48_apply, val_main_v34_apply, val_main_v47_apply, val_main_v46_apply,
    weight_idx, val_main_v50_apply, z_at, sigz_at, clipg_at, sigg_at]
  rfl

end Row

/-- The reference's result at (b, s, q): the activations summed against row q of the output weights over the
    4096 inner positions, plus the input's own entry. -/
theorem ref_apply (x0 : (⟨S2x4096x2048, .f32⟩ : BufTy).Contents (Elt Ideal)) (x1 x2 : (⟨S2048, .f32⟩ : BufTy).Contents (Elt Ideal))
    (x3 : (⟨S8192x2048, .f32⟩ : BufTy).Contents (Elt Ideal)) (x4 : (⟨S2048x4096, .f32⟩ : BufTy).Contents (Elt Ideal))
    (x5 : (⟨S4096, .f32⟩ : BufTy).Contents (Elt Ideal)) (b : Fin 2) (s : Fin 4096) (q : Fin 2048) :
    Cert.ReferenceIdeal.Read.val_main_v53 (F := Ideal) x0 x1 x2 x3 x4 x5 (ix3 b s q)
      = Cert.Spec.rowOut (fun d => x0 (ix3 b s d)) (fun d => x1 (ix1 d)) (fun d => x2 (ix1 d))
          (fun e d => x3 (ix2 (Cert.Spec.zrow e) d)) (fun e d => x3 (ix2 (Cert.Spec.grow e) d))
          (fun e => Cert.ReferenceIdeal.Read.val_main_v45 (F := Ideal) x5 (ix1 e))
          (fun q' e => x4 (ix2 q' e)) q := by
  rw [val_main_v53_apply, val_main_v52_apply]
  simp only [out_lidx, out_ridx, act_at]
  rfl

end Cert.RefSide

end
-- ==== Proof.lean ====
/-
  The certificate: a fused layer-norm, gated projection and output projection with a residual, computed by a
  Pallas kernel over a 16 × 4 grid, equals its jnp reference over the extended reals.

  Both programs compute, for every row of `x` and every output column `q`,
      (∑ over the 4096 inner positions e of  act e · W_out q e)  +  x q,
  where `act e` gates the two projections of the normalised row on rows `e` and `4096 + e` of `W_in` (clamped to
  [-15, 15] inside the logistic function and in the gate) and weighs them by softmax(-dt) e (Spec.lean). The
  reference does so in one pass (RefSide.lean, over its generated run read one operation at a time). The kernel
  visits each block of 512 rows four times, once per stretch of 1024 inner positions, adding the stretch's products
  onto an accumulator that starts at zero, and at the fourth visit writes the accumulator plus `x` back
  (KPieces.lean, KBody.lean, KBlocks.lean, KInv.lean); the blocks written back tile the result, which the host then
  views as [2, 4096, 2048] (KArrays.lean, KFinal.lean). A sum taken in four consecutive stretches onto zero is the
  whole sum: addition of extended reals is associative and commutative and `0 + a = a` (ChunkSum.lean); no entry
  needs to be finite for that, so the precondition is never opened. The narrowing of the weights and of the
  activations to a shorter float format is the identity at the ideal values, the clamp and the logistic function
  are the same functions on both sides, and the constants are the same float words on both sides.

  The three frame claims are the generated frame certificates of the two kernel programs and the reference's
  generated run with its result dropped. The idealization rewrote no operation, so `preserves` asks nothing.
-/
import proofs.«155594_j37641093382208_1_alg».proof.Defs
import proofs.«155594_j37641093382208_1_alg».proof.Proof.Gen.Kernel
import proofs.«155594_j37641093382208_1_alg».proof.Proof.Gen.Kernel.Frame
import proofs.«155594_j37641093382208_1_alg».proof.Proof.Gen.KernelIdeal
import proofs.«155594_j37641093382208_1_alg».proof.Proof.Gen.KernelIdeal.Frame
import proofs.«155594_j37641093382208_1_alg».proof.Proof.Gen.ReferenceIdeal
import proofs.«155594_j37641093382208_1_alg».proof.Proof.Gen.ReferenceIdeal.Run
import proofs.«155594_j37641093382208_1_alg».proof.Proof.Gen.ReferenceIdeal.Read
import proofs.«155594_j37641093382208_1_alg».proof.Proof.Gen.Pre_finite_inputs
import proofs.«155594_j37641093382208_1_alg».proof.Proof.KFinal
import proofs.«155594_j37641093382208_1_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel program's softmax of `-dt` is the reference's: the same host operations in the same order. -/
theorem softmax_eq (dt : FVec Ideal Cert.KernelIdeal.S4096 .f32) :
    Cert.KernelIdeal.Arrays.softmaxNeg dt = Cert.ReferenceIdeal.Read.val_main_v45 (F := Ideal) dt := rfl

/-- The reference's result of the kernel program's arguments is the kernel program's result: at every (b, s, q)
    both are the specification's row result of row (b, s). -/
theorem results_agree (m : (ℓ : Loc Cert.KernelIdeal.nD Cert.KernelIdeal.τ Cert.KernelIdeal.sig) → Buf (Elt Ideal) ℓ)
    (c : Dev Cert.KernelIdeal.nD) :
    Cert.ReferenceIdeal.Read.val_main_v53 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.Final.result m c := by
  funext j
  obtain ⟨b, s, q, rfl⟩ : ∃ (b : Fin 2) (s : Fin 4096) (q : Fin 2048), j = ix3 b s q := ⟨j 0, j 1, j 2, eq_ix3 j⟩
  rw [Cert.RefSide.ref_apply]
  refine Eq.trans ?_ (Cert.KernelIdeal.Final.result_apply m c b s q).symm
  unfold Cert.KernelIdeal.Final.resultAt
  simp only [softmax_eq]

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the arguments, both programs end with the same result. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v53_eq, h0, h1, h2, h3, h4, h5]
  exact results_agree m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
